-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S8192x64 : Shape := ⟨2, ![8192, 64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x4096 .f32) (main_arg1 : FVec F S64x4096 .f32) (main_arg2 : FVec F S8192x64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S8192x64 : Shape := ⟨2, ![8192, 64]⟩
abbrev S128x4096 : Shape := ⟨2, ![128, 4096]⟩
abbrev S128x64 : Shape := ⟨2, ![128, 64]⟩

abbrev nBuf : Space → Nat
  | .hbm => 4
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S8192x64, .f32⟩
  | .hbm, ⟨3, _⟩ => ⟨S8192x64, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S64x4096, .f32⟩
  | .local _ .vmem, ⟨9, _⟩ => ⟨S8192x64, .f32⟩
  | .local _ .vmem, ⟨10, _⟩ => ⟨S8192x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c512_i32 : BitVec 32 := 512#32
  let v5 : BitVec 32 := Scalar.muli arg0 c512_i32
  let v6 : BitVec 32 := Scalar.addi v5 c0_i32
  let v7 : Index := Scalar.indexCast v6
  let c0_3 : Index := 0#32
  ![v7.toNat, 0]
def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  h_S128x64 : 0 < S128x64.numel
  dot_S128x4096_S64x4096_S128x64_1_1_0_0_n_n_wf : DotDims.WF S128x4096 S64x4096 S128x64 [1] [1] [0] [0] [] []
  hrank0 : 0 < grid0.rank
  k0_off1_inb : ∀ i : grid0.Coords, ∀ (r : Fin 4), ∀ a, (k0_off1 i (BitVec.ofNat 32 (128 * r.val))) a + S128x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S64x4096.size a
  hwx0_4 : ∀ i : grid0.Coords, EltTy.bits .f32 = 32 ∨ (Rect.block (s := S64x4096) S64x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x64.size a ≤ S8192x64.size a
  hwx0_5 : ∀ i : grid0.Coords, EltTy.bits .f32 = 32 ∨ (Rect.block (s := S8192x64) S8192x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192x64.size a ≤ S8192x64.size a
  hwx0_6 : ∀ i : grid0.Coords, EltTy.bits .f32 = 32 ∨ (Rect.block (s := S8192x64) S8192x64.size (cc0_transform_6 i) (hinb0_6 i)).WholeWords (EltTy.packing .f32)

variable [Facts₀]

def dot_S128x4096_S64x4096_S128x64_1_1_0_0_n_n : DotDims S128x4096 S64x4096 S128x64 where
  lhsContracting := [1]
  rhsContracting := [1]
  lhsNonContracting := [0]
  rhsNonContracting := [0]
  lhsBatch := []
  rhsBatch := []
  wf := dot_S128x4096_S64x4096_S128x64_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S8192x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8192x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S8192x64 : Shape := ⟨2, ![8192, 64]⟩
abbrev S4096x64 : Shape := ⟨2, ![4096, 64]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S8192x64, .f32⟩
  | .hbm, ⟨3, _⟩ => ⟨S4096x64, .f32⟩
  | .hbm, ⟨4, _⟩ => ⟨S8192x64, .f32⟩
  | .hbm, ⟨5, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S64x4096_S4096x64_1_0 : S64x4096.Transposes [1, 0] S4096x64
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.KData.lean ====
/-
  The vocabulary of the kernel's frame and value, for any float instance `F`.
  The kernel walks the 8192 token rows in 16 grid points of 512 rows; at point `t` it reads four 128-row
  blocks of `x` (blocks 4t, 4t+1, 4t+2, 4t+3 of the 64), multiplies each with the transpose of `W`, adds the
  matching 128 rows of the noise, and stores the four 128 x 64 results into rows 512t .. 512t+511 of an output
  buffer that stays resident for the whole grid and is written back once, after the last point.
  Here: a 128-row block of `x` and of the noise, one 128-row block of the result, the whole result as one
  function of the arrays (`OUT`), and how one grid point changes the resident output buffer (`Upd`).
-/
import proofs.«110078_g14456859918464_retrytranche1_0_20_alg».proof.Proof.Gen.KernelIdeal.Launch
import proofs.«110078_g14456859918464_retrytranche1_0_20_alg».proof.Proof.Gen.KernelIdeal.Skeleton
import proofs.«110078_g14456859918464_retrytranche1_0_20_alg».proof.Proof.Gen.KernelIdeal.Points
import Idealize.ShloMosaic.Lib.Pipeline.Kit
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

/-- The proof's resource algebra: one copy of the rounds library's, the pipeline's. -/
abbrev EP : Emb (UR sig nD τ) (MT nD τ sig Unit (Elt F) ℕ (UR sig nD τ) ℕ) := emb₁

/-- The kernel's variants: none. -/
abbrev 𝒱₀ : Variants := Variants.none

/-! ## Blocks of rows -/

/-- Row `128 b + p` of an array of 8192 rows, for a block number `b < 64` and a row `p < 128` inside the block. -/
def rowOf (b : Fin 64) (p : Fin 128) : Fin 8192 := ⟨128 * b.val + p.val, by have := b.isLt; have := p.isLt; omega⟩

/-- Rows `128 b .. 128 b + 127` of `x`. -/
def xblk (x : Vec F S8192x4096 .f32) (b : Fin 64) : Vec F S128x4096 .f32 :=
  fun y => x (ix2 (rowOf b ⟨(y 0).val, (y 0).isLt⟩) (⟨(y 1).val, (y 1).isLt⟩ : Fin 4096))

/-- Rows `128 b .. 128 b + 127` of the noise. -/
def nzblk (nz : Vec F S8192x64 .f32) (b : Fin 64) : Vec F S128x64 .f32 :=
  fun y => nz (ix2 (rowOf b ⟨(y 0).val, (y 0).isLt⟩) (⟨(y 1).val, (y 1).isLt⟩ : Fin 64))

/-- Block `b` of the result: block `b` of `x` times the transpose of `W` (in bf16, accumulated in f32 from zero), plus block
    `b` of the noise — the kernel's own arithmetic on one 128-row block. -/
def outblk (x : Vec F S8192x4096 .f32) (W : Vec F S64x4096 .f32) (nz : Vec F S8192x64 .f32) (b : Fin 64) : FVec F S128x64 .f32 :=
  k0_pay3 W (xblk x b) (nzblk nz b)

/-- The whole result: entry `(r, e)` is entry `(r % 128, e)` of block `r / 128`. -/
def OUT (x : Vec F S8192x4096 .f32) (W : Vec F S64x4096 .f32) (nz : Vec F S8192x64 .f32) : Vec F S8192x64 .f32 :=
  fun j => outblk x W nz (⟨(j 0).val / 128, by have : (j 0).val < 8192 := (j 0).isLt; omega⟩ : Fin 64)
    (ix2 (⟨(j 0).val % 128, Nat.mod_lt _ (by decide)⟩ : Fin 128) (⟨(j 1).val, (j 1).isLt⟩ : Fin 64))

/-- What grid point `t` does to the resident output buffer: rows `512 t .. 512 t + 511` become the result's rows, every
    other row stays as it was. -/
def Upd (x : Vec F S8192x4096 .f32) (W : Vec F S64x4096 .f32) (nz : Vec F S8192x64 .f32) (t : Fin cfg0.N)
    (Y X : Vec F S8192x64 .f32) : Prop :=
  ∀ j : S8192x64.Idx, X j = if 512 * t.val ≤ (j 0).val ∧ (j 0).val < 512 * t.val + 512 then OUT x W nz j else Y j

/-- The grid has sixteen points. -/
theorem N16 : cfg0.N = 16 := N_0

/-- The block of `x` (and of the noise, and of the result) that window `s` of the four handles at grid point `t`: block `4 t + s`. -/
def blkNo (t : Fin cfg0.N) (s : Fin 4) : Fin 64 := ⟨4 * t.val + s.val, by have h : t.val < 16 := lt_of_lt_of_eq t.isLt N16; have := s.isLt; omega⟩

/-! ## The proof data -/

variable (m : (ℓ : Loc nD τ sig) → Buf (Elt F) ℓ) (ρ : Dev nD → PrngReg)

/-- The three argument arrays at launch, at their literal types. -/
abbrev xarr (c : Dev nD) : Vec F S8192x4096 .f32 := m ((c : Thread nD τ).loc main_arg0)
abbrev warr (c : Dev nD) : Vec F S64x4096 .f32 := m ((c : Thread nD τ).loc main_arg1)
abbrev nzarr (c : Dev nD) : Vec F S8192x64 .f32 := m ((c : Thread nD τ).loc main_arg2)

/-- The relational proof data of the one pipeline on device `c`: the arrays at their launch contents; the body leaves
    every input's staging buffer as it found it; it changes the output's resident buffer by `Upd`; no invariant; nothing
    owed; `x`, handed to the kernel through four windows, is held in four quarter shares, the other arrays whole. -/
def rdats (_ : Fin 1) (c : Dev nD) : RDat τ (Elt F) Unit ℕ (UR sig nD τ) ℕ cfg0 c where
  A w := m ((cfg0.win w).arr.view.loc (c : Thread nD τ))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => Upd (xarr m c) (warr m c) (nzarr m c) t Y X
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

end Cert.KernelIdeal.Hand

end
-- ==== Proof.KBody.lean ====
import proofs.«110078_g14456859918464_retrytranche1_0_20_alg».proof.Proof.KData
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

/-! ## The body on any whole staging memrefs

  The body loads `W`'s buffer and the four `x` buffers whole, loads four 128-row strips of the noise buffer at rows
  `512 i + 128 s`, and stores the four products-plus-noise into the same four strips of the output buffer. Run once,
  symbolically in the grid point: what the output buffer ends with is its entry contents with four pieces written. -/

/-- The four pieces the body writes into the output buffer, last store first: strip `s` (rows `512 i + 128 s` on) receives
    the body's arithmetic on the `s`-th `x` buffer, `W`'s buffer and the same strip of the noise buffer. -/
def pieces (i : grid0.Coords) (x0 x1 x2 x3 : Vec F S128x4096 .f32) (w : Vec F S64x4096 .f32) (nz : Vec F S8192x64 .f32) :
    List (View.Piece (Elt F) S8192x64 .f32) :=
  [⟨(Rect.unit (s := S8192x64) (k0_off1 i 384#32) S128x64.size (k0_off1_inb i 3)), k0_pay1 (k0_pay2 w) x3 (View.ld nz (Rect.unit (s := S8192x64) (k0_off1 i 384#32) S128x64.size (k0_off1_inb i 3)))⟩,
   ⟨(Rect.unit (s := S8192x64) (k0_off1 i 256#32) S128x64.size (k0_off1_inb i 2)), k0_pay5 w x2 (View.ld nz (Rect.unit (s := S8192x64) (k0_off1 i 256#32) S128x64.size (k0_off1_inb i 2)))⟩,
   ⟨(Rect.unit (s := S8192x64) (k0_off1 i 128#32) S128x64.size (k0_off1_inb i 1)), k0_pay4 w x1 (View.ld nz (Rect.unit (s := S8192x64) (k0_off1 i 128#32) S128x64.size (k0_off1_inb i 1)))⟩,
   ⟨(Rect.unit (s := S8192x64) (k0_off1 i 0#32) S128x64.size (k0_off1_inb i 0)), k0_pay3 w x0 (View.ld nz (Rect.unit (s := S8192x64) (k0_off1 i 0#32) S128x64.size (k0_off1_inb i 0)))⟩]

set_option maxHeartbeats 1000000 in
/-- The body's run on whole staging memrefs holding `x0 … x3`, `w`, `nz` and (the output's) `o`: it ends with the inputs'
    buffers as they were and the output's buffer at `o` with a list of pieces written, the list being the witness. -/
noncomputable def kernelRun (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (x0 x1 x2 x3 : Vec F S128x4096 .f32) (w : Vec F S64x4096 .f32) (nz : Vec F S8192x64 .f32) (o : Vec F S8192x64 .f32) :
    { L : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w ∗ owns (c : Thread nD τ) arg6 fullShare nz ∗ owns (c : Thread nD τ) arg7 fullShare o
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w ∗ owns (c : Thread nD τ) arg6 fullShare nz
                ∗ (arg7.view.loc (c : Thread nD τ) ↦[arg7.view.set]{fullShare} arg7.view.writes (Elt F) (harg7.unread o) L)) -∗ K ⟨⟩))
          ⊢ wp frame (wpE (defs₀ (F := F)) Variants.none c none) E (cc0__router_block i arg1 harg1 arg2 harg2 arg3 harg3 arg4 harg4 arg5 harg5 arg6 harg6 arg7 harg7) K } := by
  refine ⟨?_, fun E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexact H6

/-- The pieces the run found are the four strips' pieces: each whole load reads its buffer's contents, each strip load
    the noise buffer's contents on the strip. -/
theorem kernelRun_pieces (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (x0 x1 x2 x3 : Vec F S128x4096 .f32) (w : Vec F S64x4096 .f32) (nz : Vec F S8192x64 .f32) (o : Vec F S8192x64 .f32) :
    (kernelRun c i arg1 harg1 arg2 harg2 arg3 harg3 arg4 harg4 arg5 harg5 arg6 harg6 arg7 harg7 x0 x1 x2 x3 w nz o).1 = pieces i x0 x1 x2 x3 w nz := by
  have hz : (![0, 0] : Fin 2 → Nat) = fun _ => 0 := funext fun a => by fin_cases a <;> rfl
  unfold kernelRun pieces
  dsimp only
  sl_unfold_words
  simp only [View.readAt_eq_ld, harg1.read_unread, harg2.read_unread, harg3.read_unread, harg4.read_unread, harg5.read_unread,
    harg6.read_unread, View.ld_unit_zero (S := S128x4096) hz, View.ld_unit_zero (S := S64x4096) hz]

end Cert.KernelIdeal.Hand

end
-- ==== Proof.KFinds.lean ====
import proofs.«110078_g14456859918464_retrytranche1_0_20_alg».proof.Proof.KData

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each window's staging buffer -/

/-- At grid point `t`, window 0 reads the block of `x` in block row `4 t + 0`, block column `0`. -/
private theorem idx_x0 : ∀ t : Fin cfg0.N, win0_0.index t (0 : Fin 2) = 4 * t.val + 0 ∧ win0_0.index t (1 : Fin 2) = 0 :=
  (by decide +kernel : ∀ t : Fin grid0.N, win0_0.index t (0 : Fin 2) = 4 * t.val + 0 ∧ win0_0.index t (1 : Fin 2) = 0)

theorem finds_x0 (c : Dev nD) (t : Fin cfg0.N) (X : Vec F S128x4096 .f32) (h : (rdats m 0 c).Finds (0 : Fin 7) t X) :
    X = xblk (xarr m c) (blkNo t 0) := by
  -- the window is fetched at every point, and its block lies inside the array: the buffer holds the block
  rw [(rdats m 0 c).finds_of_fetch (fetch0_0 t)] at h
  obtain ⟨d, rfl⟩ := h
  obtain ⟨e0, e1⟩ := idx_x0 t
  funext y
  have hm : (cfg0.win 0).moved (cfg0.grid.coords t) y = true :=
    ((cfg0.win 0).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_0.index t (0 : Fin 2) * 128 + 1 * (y 0).val = 128 * (4 * t.val + 0) + (y 0).val
    rw [e0]; omega
  | ⟨1, _⟩ =>
    show win0_0.index t (1 : Fin 2) * 4096 + 1 * (y 1).val = (y 1).val
    rw [e1]; omega

/-- At grid point `t`, window 1 reads the block of `x` in block row `4 t + 1`, block column `0`. -/
private theorem idx_x1 : ∀ t : Fin cfg0.N, win0_1.index t (0 : Fin 2) = 4 * t.val + 1 ∧ win0_1.index t (1 : Fin 2) = 0 :=
  (by decide +kernel : ∀ t : Fin grid0.N, win0_1.index t (0 : Fin 2) = 4 * t.val + 1 ∧ win0_1.index t (1 : Fin 2) = 0)

theorem finds_x1 (c : Dev nD) (t : Fin cfg0.N) (X : Vec F S128x4096 .f32) (h : (rdats m 0 c).Finds (1 : Fin 7) t X) :
    X = xblk (xarr m c) (blkNo t 1) := by
  -- the window is fetched at every point, and its block lies inside the array: the buffer holds the block
  rw [(rdats m 0 c).finds_of_fetch (fetch0_1 t)] at h
  obtain ⟨d, rfl⟩ := h
  obtain ⟨e0, e1⟩ := idx_x1 t
  funext y
  have hm : (cfg0.win 1).moved (cfg0.grid.coords t) y = true :=
    ((cfg0.win 1).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_1.index t (0 : Fin 2) * 128 + 1 * (y 0).val = 128 * (4 * t.val + 1) + (y 0).val
    rw [e0]; omega
  | ⟨1, _⟩ =>
    show win0_1.index t (1 : Fin 2) * 4096 + 1 * (y 1).val = (y 1).val
    rw [e1]; omega

/-- At grid point `t`, window 2 reads the block of `x` in block row `4 t + 2`, block column `0`. -/
private theorem idx_x2 : ∀ t : Fin cfg0.N, win0_2.index t (0 : Fin 2) = 4 * t.val + 2 ∧ win0_2.index t (1 : Fin 2) = 0 :=
  (by decide +kernel : ∀ t : Fin grid0.N, win0_2.index t (0 : Fin 2) = 4 * t.val + 2 ∧ win0_2.index t (1 : Fin 2) = 0)

theorem finds_x2 (c : Dev nD) (t : Fin cfg0.N) (X : Vec F S128x4096 .f32) (h : (rdats m 0 c).Finds (2 : Fin 7) t X) :
    X = xblk (xarr m c) (blkNo t 2) := by
  -- the window is fetched at every point, and its block lies inside the array: the buffer holds the block
  rw [(rdats m 0 c).finds_of_fetch (fetch0_2 t)] at h
  obtain ⟨d, rfl⟩ := h
  obtain ⟨e0, e1⟩ := idx_x2 t
  funext y
  have hm : (cfg0.win 2).moved (cfg0.grid.coords t) y = true :=
    ((cfg0.win 2).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_2.index t (0 : Fin 2) * 128 + 1 * (y 0).val = 128 * (4 * t.val + 2) + (y 0).val
    rw [e0]; omega
  | ⟨1, _⟩ =>
    show win0_2.index t (1 : Fin 2) * 4096 + 1 * (y 1).val = (y 1).val
    rw [e1]; omega

/-- At grid point `t`, window 3 reads the block of `x` in block row `4 t + 3`, block column `0`. -/
private theorem idx_x3 : ∀ t : Fin cfg0.N, win0_3.index t (0 : Fin 2) = 4 * t.val + 3 ∧ win0_3.index t (1 : Fin 2) = 0 :=
  (by decide +kernel : ∀ t : Fin grid0.N, win0_3.index t (0 : Fin 2) = 4 * t.val + 3 ∧ win0_3.index t (1 : Fin 2) = 0)

theorem finds_x3 (c : Dev nD) (t : Fin cfg0.N) (X : Vec F S128x4096 .f32) (h : (rdats m 0 c).Finds (3 : Fin 7) t X) :
    X = xblk (xarr m c) (blkNo t 3) := by
  -- the window is fetched at every point, and its block lies inside the array: the buffer holds the block
  rw [(rdats m 0 c).finds_of_fetch (fetch0_3 t)] at h
  obtain ⟨d, rfl⟩ := h
  obtain ⟨e0, e1⟩ := idx_x3 t
  funext y
  have hm : (cfg0.win 3).moved (cfg0.grid.coords t) y = true :=
    ((cfg0.win 3).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_3.index t (0 : Fin 2) * 128 + 1 * (y 0).val = 128 * (4 * t.val + 3) + (y 0).val
    rw [e0]; omega
  | ⟨1, _⟩ =>
    show win0_3.index t (1 : Fin 2) * 4096 + 1 * (y 1).val = (y 1).val
    rw [e1]; omega

/-- At every grid point window 4 is the one block `(0, 0)`: the whole of `W`. -/
private theorem idx_w : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- A fetch of window 4 fills its buffer with the whole of `W`. -/
private theorem fetched_w (c : Dev nD) (t : Fin cfg0.N) (d : Vec F S64x4096 .f32) :
    (rdats m 0 c).fetched (4 : Fin 7) t d = warr m c := by
  obtain ⟨e0, e1⟩ := idx_w t
  funext y
  have hm : (cfg0.win 4).moved (cfg0.grid.coords t) y = true :=
    ((cfg0.win 4).moved_iff _ y).mpr fun a => (y a).isLt
  unfold RDat.fetched Window.fill
  rw [dif_pos hm]
  unfold RDat.blockOf
  rw [View.read_apply]
  show warr m c _ = warr m c _
  congr 1
  funext a
  apply Fin.ext
  match a with
  | ⟨0, _⟩ =>
    show win0_4.index t (0 : Fin 2) * 64 + 1 * (y 0).val = (y 0).val
    rw [e0]; omega
  | ⟨1, _⟩ =>
    show win0_4.index t (1 : Fin 2) * 4096 + 1 * (y 1).val = (y 1).val
    rw [e1]; omega

/-- Window 4 is fetched at the first point and left as found by every point: its buffer holds `W` throughout. -/
private theorem finds_w_aux (c : Dev nD) : ∀ (n : ℕ) (hn : n < cfg0.N) (X : Vec F S64x4096 .f32),
    (rdats m 0 c).Finds (4 : Fin 7) ⟨n, hn⟩ X → X = warr m c := by
  intro n
  induction n with
  | zero =>
    intro hn X h
    rw [(rdats m 0 c).finds_of_fetch ((fetch0_4 ⟨0, hn⟩).mpr (Nat.zero_mod 16))] at h
    obtain ⟨d, rfl⟩ := h
    exact fetched_w m c _ d
  | succ k ih =>
    intro hn X h
    have hN : cfg0.N = 16 := N16
    -- a point after the first does not fetch the window
    have hf : (cfg0.win 4).fetch ⟨k + 1, hn⟩ = false := by
      cases hb : (cfg0.win 4).fetch ⟨k + 1, hn⟩ with
      | false => rfl
      | true =>
        have h0 : (k + 1) % 16 = 0 := (fetch0_4 ⟨k + 1, hn⟩).mp hb
        omega
    rw [(rdats m 0 c).finds_of_pos hf (Nat.succ_ne_zero k)] at h
    rcases h with hfl | ⟨Y, hY, hYX⟩
    · -- an input is never written back
      exact absurd hfl (by
        have : ∀ t : Fin cfg0.N, (cfg0.win 4).flush t = false :=
          (by decide +kernel : ∀ t : Fin grid0.N, win0_4.flush t = false)
        rw [this]; exact Bool.false_ne_true)
    · -- the previous point left the buffer as it found it
      have hY' : Y = warr m c := ih (by omega) Y hY
      have e : X = Y := by dsimp only [rdats] at hYX; exact hYX
      rw [e, hY']

theorem finds_w (c : Dev nD) (t : Fin cfg0.N) (X : Vec F S64x4096 .f32) (h : (rdats m 0 c).Finds (4 : Fin 7) t X) :
    X = warr m c :=
  finds_w_aux m c t.val t.isLt X h

/-- At every grid point window 5 is the one block `(0, 0)`: the whole of the noise. -/
private theorem idx_nz : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- A fetch of window 5 fills its buffer with the whole of the noise. -/
private theorem fetched_nz (c : Dev nD) (t : Fin cfg0.N) (d : Vec F S8192x64 .f32) :
    (rdats m 0 c).fetched (5 : Fin 7) t d = nzarr m c := by
  obtain ⟨e0, e1⟩ := idx_nz t
  funext y
  have hm : (cfg0.win 5).moved (cfg0.grid.coords t) y = true :=
    ((cfg0.win 5).moved_iff _ y).mpr fun a => (y a).isLt
  unfold RDat.fetched Window.fill
  rw [dif_pos hm]
  unfold RDat.blockOf
  rw [View.read_apply]
  show nzarr m c _ = nzarr m c _
  congr 1
  funext a
  apply Fin.ext
  match a with
  | ⟨0, _⟩ =>
    show win0_5.index t (0 : Fin 2) * 8192 + 1 * (y 0).val = (y 0).val
    rw [e0]; omega
  | ⟨1, _⟩ =>
    show win0_5.index t (1 : Fin 2) * 64 + 1 * (y 1).val = (y 1).val
    rw [e1]; omega

/-- Window 5 is fetched at the first point and left as found by every point: its buffer holds the noise throughout. -/
private theorem finds_nz_aux (c : Dev nD) : ∀ (n : ℕ) (hn : n < cfg0.N) (X : Vec F S8192x64 .f32),
    (rdats m 0 c).Finds (5 : Fin 7) ⟨n, hn⟩ X → X = nzarr m c := by
  intro n
  induction n with
  | zero =>
    intro hn X h
    rw [(rdats m 0 c).finds_of_fetch ((fetch0_5 ⟨0, hn⟩).mpr (Nat.zero_mod 16))] at h
    obtain ⟨d, rfl⟩ := h
    exact fetched_nz m c _ d
  | succ k ih =>
    intro hn X h
    have hN : cfg0.N = 16 := N16
    -- a point after the first does not fetch the window
    have hf : (cfg0.win 5).fetch ⟨k + 1, hn⟩ = false := by
      cases hb : (cfg0.win 5).fetch ⟨k + 1, hn⟩ with
      | false => rfl
      | true =>
        have h0 : (k + 1) % 16 = 0 := (fetch0_5 ⟨k + 1, hn⟩).mp hb
        omega
    rw [(rdats m 0 c).finds_of_pos hf (Nat.succ_ne_zero k)] at h
    rcases h with hfl | ⟨Y, hY, hYX⟩
    · -- an input is never written back
      exact absurd hfl (by
        have : ∀ t : Fin cfg0.N, (cfg0.win 5).flush t = false :=
          (by decide +kernel : ∀ t : Fin grid0.N, win0_5.flush t = false)
        rw [this]; exact Bool.false_ne_true)
    · -- the previous point left the buffer as it found it
      have hY' : Y = nzarr m c := ih (by omega) Y hY
      have e : X = Y := by dsimp only [rdats] at hYX; exact hYX
      rw [e, hY']

theorem finds_nz (c : Dev nD) (t : Fin cfg0.N) (X : Vec F S8192x64 .f32) (h : (rdats m 0 c).Finds (5 : Fin 7) t X) :
    X = nzarr m c :=
  finds_nz_aux m c t.val t.isLt X h

/-- Before point `n` the resident output buffer already holds the result's rows below `512 n`: by induction on `n`. -/
private theorem finds_out_aux (c : Dev nD) : ∀ (n : ℕ) (hn : n < cfg0.N) (Y : Vec F S8192x64 .f32),
    (rdats m 0 c).Finds (6 : Fin 7) ⟨n, hn⟩ Y →
    ∀ j : S8192x64.Idx, (j 0).val < 512 * n → Y j = OUT (xarr m c) (warr m c) (nzarr m c) j := by
  intro n
  induction n with
  | zero => intro hn Y h j hj; omega
  | succ k ih =>
    intro hn Y h j hj
    have hN : cfg0.N = 16 := N16
    have hf : (cfg0.win 6).fetch ⟨k + 1, hn⟩ = false :=
      (by decide +kernel : ∀ t : Fin grid0.N, win0_6.fetch t = false) _
    rw [(rdats m 0 c).finds_of_pos hf (Nat.succ_ne_zero k)] at h
    rcases h with hfl | ⟨Y', hY', hU⟩
    · -- the previous point is not the last: it does not write the buffer back
      have h15 : (k + 1 - 1) % 16 = 15 := (flush0_6 _).mp hfl
      omega
    · -- the previous point rewrote rows 512 k .. 512 k + 511 and kept the others
      have hU' : Upd (xarr m c) (warr m c) (nzarr m c) ⟨k, by omega⟩ Y' Y := by
        dsimp only [rdats] at hU; exact hU
      rw [hU' j]
      by_cases hr : 512 * k ≤ (j 0).val ∧ (j 0).val < 512 * k + 512
      · rw [if_pos hr]
      · rw [if_neg hr]
        exact ih (by omega) Y' hY' j (by omega)

/-- Before point `t` the resident output buffer already holds the result's rows below `512 t`. -/
theorem finds_out (c : Dev nD) (t : Fin cfg0.N) (Y : Vec F S8192x64 .f32) (h : (rdats m 0 c).Finds (6 : Fin 7) t Y) :
    ∀ j : S8192x64.Idx, (j 0).val < 512 * t.val → Y j = OUT (xarr m c) (warr m c) (nzarr m c) j :=
  finds_out_aux m c t.val t.isLt Y h

/-! ## The arrays after the run -/

/-- Window 6 is one block, the whole result array, at every point. -/
private theorem idx_out : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The result array after the one write-back: the whole result. -/
theorem final_out (c : Dev nD) (G : Buf (Elt F) ((cfg0.win (6 : Fin 7)).arr.view.loc (c : Thread nD τ)))
    (h : (rdats m 0 c).ArrAt (6 : Fin 7) cfg0.N G) : G = OUT (xarr m c) (warr m c) (nzarr m c) := by
  have hN : cfg0.N = 16 := N16
  have h15 : (15 : ℕ) < cfg0.N := by omega
  have hfl : (cfg0.win 6).flush ⟨15, h15⟩ = true := (flush0_6 ⟨15, h15⟩).mpr rfl
  have hstep : (rdats m 0 c).ArrStep 6 ⟨15, h15⟩ ((rdats m 0 c).ArrAt 6 15) G := by
    rw [hN] at h
    have h2 : (rdats m 0 c).ArrAt 6 (15 + 1) G := h
    rw [RDat.ArrAt] at h2
    simp only [dif_pos h15, if_pos hfl] at h2
    exact h2
  obtain ⟨G₀, X, -, hL, rfl⟩ := hstep
  -- the block written back is the whole array, so the array ends holding what the buffer held
  obtain ⟨e0, e1⟩ := idx_out ⟨15, h15⟩
  have hz : (fun a => win0_6.index ⟨15, h15⟩ a * main_v0.ty.shape.size a) = fun _ => 0 := funext fun a => by
    match a with
    | ⟨0, _⟩ => show win0_6.index ⟨15, h15⟩ (0 : Fin 2) * 8192 = 0; rw [e0, Nat.zero_mul]
    | ⟨1, _⟩ => show win0_6.index ⟨15, h15⟩ (1 : Fin 2) * 64 = 0; rw [e1, Nat.zero_mul]
  have hw : ((cfg0.win 6).blk ⟨15, h15⟩).view.write (Elt F) G₀ ((cfg0.win 6).cut (cfg0.grid.coords ⟨15, h15⟩) X) Finset.univ = X :=
    Memref.write_access_unit_zero_univ (Elt F) main_v0 hz (fun a => by rw [congrFun hz a, Nat.zero_add]) G₀ X
  rw [hw]
  -- the last point rewrote rows 7680 .. 8191; the rows below it were the result's already
  obtain ⟨Y, hY, hU⟩ := hL
  have hU' : Upd (xarr m c) (warr m c) (nzarr m c) ⟨15, h15⟩ Y X := by
    dsimp only [rdats] at hU; exact hU
  funext j
  rw [hU' j]
  have hj : (j 0).val < 8192 := (j 0).isLt
  by_cases hr : 512 * 15 ≤ (j 0).val ∧ (j 0).val < 512 * 15 + 512
  · rw [if_pos hr]
  · rw [if_neg hr]
    exact finds_out m c ⟨15, h15⟩ Y hY j (by show (j 0).val < 512 * 15; omega)

/-- An input array ends as it began. -/
theorem final_in (c : Dev nD) (w : Fin 7) (hw : w ≠ 6) (G : Buf (Elt F) ((cfg0.win w).arr.view.loc (c : Thread nD τ)))
    (h : (rdats m 0 c).ArrAt w cfg0.N G) : G = (rdats m 0 c).A w := by
  have hin : (cfg0.win w).isOut = false := by
    revert hw; fin_cases w <;> intro hw <;> first | rfl | exact absurd rfl hw
  rw [(rdats m 0 c).ArrAt_in w hin] at h
  exact h

end Cert.KernelIdeal.Hand

end
-- ==== Proof.KOblig.lean ====
import proofs.«110078_g14456859918464_retrytranche1_0_20_alg».proof.Proof.KBody
import proofs.«110078_g14456859918464_retrytranche1_0_20_alg».proof.Proof.KFinds

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

/-! ## The strips -/

/-- At grid point `t` the four strips start at rows `512 t`, `512 t + 128`, `512 t + 256`, `512 t + 384`, column 0: the body's
    32-bit index arithmetic does not wrap on the sixteen points. -/
theorem off_eq : ∀ t : Fin grid0.N,
    (k0_off1 (grid0.coords t) 0#32 0 = 512 * t.val ∧ k0_off1 (grid0.coords t) 0#32 1 = 0)
    ∧ (k0_off1 (grid0.coords t) 128#32 0 = 512 * t.val + 128 ∧ k0_off1 (grid0.coords t) 128#32 1 = 0)
    ∧ (k0_off1 (grid0.coords t) 256#32 0 = 512 * t.val + 256 ∧ k0_off1 (grid0.coords t) 256#32 1 = 0)
    ∧ (k0_off1 (grid0.coords t) 384#32 0 = 512 * t.val + 384 ∧ k0_off1 (grid0.coords t) 384#32 1 = 0) := by
  decide +kernel

/-- The result at an entry whose row is `128 b + p`: entry `(p, column)` of block `b`. -/
theorem OUT_apply (x : Vec F S8192x4096 .f32) (W : Vec F S64x4096 .f32) (nz : Vec F S8192x64 .f32) (j : S8192x64.Idx)
    (b : Fin 64) (y : S128x64.Idx) (hr : (j 0).val = 128 * b.val + (y 0).val) (hc : (j 1).val = (y 1).val) :
    OUT x W nz j = outblk x W nz b y := by
  have hp : (y 0).val < 128 := (y 0).isLt
  have h1 : (j 0).val / 128 = b.val := by omega
  have h2 : (j 0).val % 128 = (y 0).val := by omega
  unfold OUT
  refine congr (congrArg (outblk x W nz) (Fin.ext h1)) ?_
  funext a
  match a with
  | ⟨0, _⟩ => exact Fin.ext h2
  | ⟨1, _⟩ => exact Fin.ext hc

/-- A strip's piece is the result on the strip: for the strip of block `b` (rows `128 b` on, all 64 columns), the body's
    arithmetic on block `b` of `x`, on `W` and on the strip of the noise is the result read at the strip's entries. -/
theorem strip_eq (x : Vec F S8192x4096 .f32) (W : Vec F S64x4096 .f32) (nz : Vec F S8192x64 .f32) (b : Fin 64)
    (off : Fin 2 → ℕ) (h0 : off 0 = 128 * b.val) (h1 : off 1 = 0) (inb : ∀ a, off a + S128x64.size a ≤ S8192x64.size a)
    (y : S128x64.Idx) :
    k0_pay3 W (xblk x b) (View.ld nz (Rect.unit (s := S8192x64) off S128x64.size inb)) y
      = OUT x W nz ((Rect.unit (s := S8192x64) off S128x64.size inb).emb y) := by
  have hld : View.ld nz (Rect.unit (s := S8192x64) off S128x64.size inb) = nzblk nz b := by
    funext y'
    show nz ((Rect.unit (s := S8192x64) off S128x64.size inb).idx y') = _
    unfold nzblk
    refine congrArg nz (funext fun a => Fin.ext ?_)
    match a with
    | ⟨0, _⟩ =>
      show off 0 + 1 * (y' 0).val = 128 * b.val + (y' 0).val
      rw [h0]; omega
    | ⟨1, _⟩ =>
      show off 1 + 1 * (y' 1).val = (y' 1).val
      rw [h1]; omega
  rw [hld]
  refine (OUT_apply x W nz _ b y ?_ ?_).symm
  · show off 0 + 1 * (y 0).val = _
    rw [h0]; omega
  · show off 1 + 1 * (y 1).val = _
    rw [h1]; omega

/-- One grid point's change of the output buffer, from the four pieces: whatever view the buffer is read through and whatever
    it held (`f`), after the four strips are written rows `512 t .. 512 t + 511` read the result and every other row what
    it read before. -/
theorem upd_pieces (x : Vec F S8192x4096 .f32) (W : Vec F S64x4096 .f32) (nz : Vec F S8192x64 .f32) (t : Fin cfg0.N)
    {sig' : RefSig} {κ : Kind} {sp : Space} (v : View sig' κ sp S8192x64 .f32) (f : v.ty.Contents (Elt F)) :
    Upd x W nz t (v.read (Elt F) f)
      (v.read (Elt F) (v.writes (Elt F) f
        (pieces (grid0.coords t) (xblk x (blkNo t 0)) (xblk x (blkNo t 1)) (xblk x (blkNo t 2)) (xblk x (blkNo t 3)) W nz))) := by
  intro j
  obtain ⟨⟨a0, c0⟩, ⟨a1, c1⟩, ⟨a2, c2⟩, ⟨a3, c3⟩⟩ := off_eq t
  have hj0 : (j 0).val < 8192 := (j 0).isLt
  have hj1 : (j 1).val < 64 := (j 1).isLt
  have ht : t.val < 16 := lt_of_lt_of_eq t.isLt N16
  -- each piece's payload is the result on its strip
  have hpieces : ∀ p ∈ pieces (grid0.coords t) (xblk x (blkNo t 0)) (xblk x (blkNo t 1)) (xblk x (blkNo t 2)) (xblk x (blkNo t 3)) W nz,
      ∀ y : p.1.shape.Idx, p.2 y = OUT x W nz (p.1.emb y) := by
    intro p hp
    simp only [pieces, List.mem_cons, List.mem_nil_iff, _root_.or_false] at hp
    rcases hp with rfl | rfl | rfl | rfl
    · exact fun y => strip_eq x W nz (blkNo t 3) _ (by rw [a3]; show _ = 128 * (4 * t.val + 3); omega) c3 _ y
    · exact fun y => strip_eq x W nz (blkNo t 2) _ (by rw [a2]; show _ = 128 * (4 * t.val + 2); omega) c2 _ y
    · exact fun y => strip_eq x W nz (blkNo t 1) _ (by rw [a1]; show _ = 128 * (4 * t.val + 1); omega) c1 _ y
    · exact fun y => strip_eq x W nz (blkNo t 0) _ (by rw [a0]; show _ = 128 * (4 * t.val + 0); omega) c0 _ y
  -- membership in a strip, in numbers
  have hmem : ∀ (off : Fin 2 → ℕ) (inb : ∀ a, off a + S128x64.size a ≤ S8192x64.size a) (r : ℕ), off 0 = r → off 1 = 0 →
      (j ∈ (Rect.unit (s := S8192x64) off S128x64.size inb).set ↔ r ≤ (j 0).val ∧ (j 0).val < r + 128) := by
    intro off inb r h0 h1
    rw [Rect.mem_set_unit]
    constructor
    · intro h
      have := h 0
      rw [h0] at this
      exact this
    · intro h a
      match a with
      | ⟨0, _⟩ =>
        show off 0 ≤ (j 0).val ∧ (j 0).val < off 0 + 128
        rw [h0]; exact h
      | ⟨1, _⟩ =>
        show off 1 ≤ (j 1).val ∧ (j 1).val < off 1 + 64
        rw [h1]; omega
  by_cases h : 512 * t.val ≤ (j 0).val ∧ (j 0).val < 512 * t.val + 512
  · rw [if_pos h]
    have hcov : ∃ p ∈ pieces (grid0.coords t) (xblk x (blkNo t 0)) (xblk x (blkNo t 1)) (xblk x (blkNo t 2)) (xblk x (blkNo t 3)) W nz,
        j ∈ p.1.set := by
      unfold pieces
      by_cases h3 : 512 * t.val + 384 ≤ (j 0).val
      · refine ⟨_, List.mem_cons_self, ?_⟩
        exact (hmem _ (k0_off1_inb (grid0.coords t) 3) _ a3 c3).mpr ⟨h3, by omega⟩
      by_cases h2 : 512 * t.val + 256 ≤ (j 0).val
      · refine ⟨_, List.mem_cons_of_mem _ List.mem_cons_self, ?_⟩
        exact (hmem _ (k0_off1_inb (grid0.coords t) 2) _ a2 c2).mpr ⟨h2, by omega⟩
      by_cases h1 : 512 * t.val + 128 ≤ (j 0).val
      · refine ⟨_, List.mem_cons_of_mem _ (List.mem_cons_of_mem _ List.mem_cons_self), ?_⟩
        exact (hmem _ (k0_off1_inb (grid0.coords t) 1) _ a1 c1).mpr ⟨h1, by omega⟩
      · refine ⟨_, List.mem_cons_of_mem _ (List.mem_cons_of_mem _ (List.mem_cons_of_mem _ List.mem_cons_self)), ?_⟩
        exact (hmem _ (k0_off1_inb (grid0.coords t) 0) _ a0 c0).mpr ⟨h.1, by omega⟩
    rw [View.read_writes_apply_eq_canon v f j _ hcov]
    exact View.canon_apply_of_pieces (OUT x W nz) _ hpieces j hcov
  · rw [if_neg h]
    refine View.read_writes_apply_of_forall_not_mem v f j _ fun p hp hjp => h ?_
    simp only [pieces, List.mem_cons, List.mem_nil_iff, _root_.or_false] at hp
    rcases hp with rfl | rfl | rfl | rfl
    · have := (hmem _ (k0_off1_inb (grid0.coords t) 3) _ a3 c3).mp hjp; omega
    · have := (hmem _ (k0_off1_inb (grid0.coords t) 2) _ a2 c2).mp hjp; omega
    · have := (hmem _ (k0_off1_inb (grid0.coords t) 1) _ a1 c1).mp hjp; omega
    · have := (hmem _ (k0_off1_inb (grid0.coords t) 0) _ a0 c0).mp hjp; omega

/-! ## The body obligation -/

variable (m : (ℓ : Loc nD τ sig) → Buf (Elt F) ℓ)

/-- The body at grid point `t` on whole staging memrefs holding the point's four blocks of `x`, `W`, the noise and (the
    output's) any contents `o`: it leaves the inputs' buffers as they were and the output's changed by `Upd`. -/
theorem sound_body (c : Dev nD) (E : Set ℕ) (t : Fin cfg0.N) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (o : Vec F S8192x64 .f32) (K : PUnit → sProp 𝕄) :
    iprop(owns (c : Thread nD τ) arg1 fullShare (xblk (xarr m c) (blkNo t 0))
        ∗ owns (c : Thread nD τ) arg2 fullShare (xblk (xarr m c) (blkNo t 1))
        ∗ owns (c : Thread nD τ) arg3 fullShare (xblk (xarr m c) (blkNo t 2))
        ∗ owns (c : Thread nD τ) arg4 fullShare (xblk (xarr m c) (blkNo t 3))
        ∗ owns (c : Thread nD τ) arg5 fullShare (warr m c)
        ∗ owns (c : Thread nD τ) arg6 fullShare (nzarr m c)
        ∗ owns (c : Thread nD τ) arg7 fullShare o
        ∗ (iprop(owns (c : Thread nD τ) arg1 fullShare (xblk (xarr m c) (blkNo t 0))
        ∗ owns (c : Thread nD τ) arg2 fullShare (xblk (xarr m c) (blkNo t 1))
        ∗ owns (c : Thread nD τ) arg3 fullShare (xblk (xarr m c) (blkNo t 2))
        ∗ owns (c : Thread nD τ) arg4 fullShare (xblk (xarr m c) (blkNo t 3))
        ∗ owns (c : Thread nD τ) arg5 fullShare (warr m c)
        ∗ owns (c : Thread nD τ) arg6 fullShare (nzarr m c)
              ∗ (∃ X, ⌜Upd (xarr m c) (warr m c) (nzarr m c) t o X⌝ ∗ owns (c : Thread nD τ) arg7 fullShare X)) -∗ K ⟨⟩))
      ⊢ wp frame (wpE (defs₀ (F := F)) Variants.none c none) E (cc0__router_block (grid0.coords t) arg1 harg1 arg2 harg2 arg3 harg3 arg4 harg4 arg5 harg5 arg6 harg6 arg7 harg7) K := by
  iintro ⟨H0, H1, H2, H3, H4, H5, H6, Hk⟩
  iapply ((kernelRun c (grid0.coords t) arg1 harg1 arg2 harg2 arg3 harg3 arg4 harg4 arg5 harg5 arg6 harg6 arg7 harg7 (xblk (xarr m c) (blkNo t 0)) (xblk (xarr m c) (blkNo t 1)) (xblk (xarr m c) (blkNo t 2)) (xblk (xarr m c) (blkNo t 3)) (warr m c) (nzarr m c) o).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]; · iexact H5
  iexists (arg7.view.read (Elt F) (arg7.view.writes (Elt F) (harg7.unread o)
    (kernelRun c (grid0.coords t) arg1 harg1 arg2 harg2 arg3 harg3 arg4 harg4 arg5 harg5 arg6 harg6 arg7 harg7 (xblk (xarr m c) (blkNo t 0)) (xblk (xarr m c) (blkNo t 1)) (xblk (xarr m c) (blkNo t 2)) (xblk (xarr m c) (blkNo t 3)) (warr m c) (nzarr m c) o).1))
  isplitr
  · ipureintro
    rw [kernelRun_pieces]
    have h := upd_pieces (xarr m c) (warr m c) (nzarr m c) t arg7.view (harg7.unread o)
    rwa [harg7.read_unread] at h
  · unfold owns
    iexists _
    isplitr
    · ipureintro; rfl
    iexact H6

/-- The library's body obligation for the relational proof data: whatever the seven current buffers may hold at point `t`
    — the four `x` windows their blocks, `W`'s and the noise's the arrays, the output's anything —, the body runs and leaves each
    input's buffer as handed and the output's in the relation `Upd` to what was handed. -/
theorem body_obligation (c : Dev nD) : (rdats m 0 c).BodyObligation (defs₀ (F := F)) 𝒱₀ () Set.univ := fun t Y hY => by
  rw [bigSep_W0, bigSep_W0]
  rw [show (rdats m 0 c).Φ t.succ = (rdats m 0 c).Φ t.castSucc from rfl,
    show (rdats m 0 c).owesAt () t.succ = (rdats m 0 c).owesAt () t.castSucc from rfl]
  have e0 := finds_x0 m c t (Y 0) (hY 0)
  have e1 := finds_x1 m c t (Y 1) (hY 1)
  have e2 := finds_x2 m c t (Y 2) (hY 2)
  have e3 := finds_x3 m c t (Y 3) (hY 3)
  have e4 := finds_w m c t (Y 4) (hY 4)
  have e5 := finds_nz m c t (Y 5) (hY 5)
  rw [e0, e1, e2, e3, e4, e5]
  change _ ⊢ wp frame (wpE (defs₀ (F := F)) Variants.none c none) Set.univ (bodyAt0 t) _
  iintro ⟨HΦ, Ho, H0, H1, H2, H3, H4, H5, H6⟩
  iapply (sound_body m c Set.univ t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  · iexists X; isplitr; · ipureintro; exact hX
    iexact H6

end Cert.KernelIdeal.Hand

end
-- ==== Proof.KLaunch.lean ====
import proofs.«110078_g14456859918464_retrytranche1_0_20_alg».proof.Proof.KData

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry

The seven windows stand on four buffers: `x` (windows 0 to 3), `W` (window 4), the noise (window 5) and the
result (window 6). At launch each buffer is held whole at the full share. The full share of `x` is the composite of
its two halves, and each half of its own two halves, so `x` is held four times at the quarter shares the proof data
names, at the same contents; the other three buffers pass to their windows as they are. -/

/-- The four buffers behind the seven windows' arrays. -/
theorem arrImage : Finset.univ.image (Pipeline.arrRef spec0) = [main_arg0, main_arg1, main_arg2, main_v0].toFinset := by decide

/-- A window's array is a whole buffer: held over its element set at the window's share, it is the buffer held at
    that share. -/
theorem win_eq (c : Dev nD) (w : Fin 7) :
    ((cfg0.win w).arr.view.loc (c : Thread nD τ) ↦[(cfg0.win w).arr.view.set]{(rdats m 0 c).share w} (rdats m 0 c).A w : sProp 𝕄)
      = ((c : Thread nD τ).loc (Pipeline.arrRef spec0 w) ↦{(rdats m 0 c).share w} m ((c : Thread nD τ).loc (Pipeline.arrRef spec0 w))) := by
  rw [(arr_whole0 w).set_eq_univ]; rfl

/-- The four buffers, each whole at the full share at its launch contents, are the proof data's arrays at entry:
    `x` split into its four quarter shares, one per window on it. -/
theorem arrays_split4 (c : Dev nD) :
    (Pipeline.arrBufs spec0 c (fun b => m ((c : Thread nD τ).loc b)) : sProp 𝕄) ⊢ (rdats m 0 c).arrays (rdats m 0 c).A := by
  unfold Pipeline.arrBufs RDat.arrays
  rw [bigSep_eq_bigSepL_of_eq [main_arg0, main_arg1, main_arg2, main_v0] arrImage (by decide), bigSep_W0]
  rw [win_eq m c 0, win_eq m c 1, win_eq m c 2, win_eq m c 3, win_eq m c 4, win_eq m c 5, win_eq m c 6]
  -- each window's share: a quarter of the full share for the four on `x`, the full share for the other three
  change iprop(((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_v0 ↦{fullShare} m ((c : Thread nD τ).loc main_v0)))
    ⊢ iprop(((c : Thread nD τ).loc main_arg0 ↦{fullShare.left.left} m ((c : Thread nD τ).loc main_arg0))
    ∗ ((c : Thread nD τ).loc main_arg0 ↦{fullShare.left.right} m ((c : Thread nD τ).loc main_arg0))
    ∗ ((c : Thread nD τ).loc main_arg0 ↦{fullShare.right.left} m ((c : Thread nD τ).loc main_arg0))
    ∗ ((c : Thread nD τ).loc main_arg0 ↦{fullShare.right.right} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_v0 ↦{fullShare} m ((c : Thread nD τ).loc main_v0)))
  iintro ⟨H0, H1, H2, H3⟩
  -- the full share is its left and right halves; each half is its own left and right halves
  ihave H0' := (pointsTo_share (PosShare.mem_left_op_right fullShare)).1 $$ H0
  icases H0' with ⟨HL, HR⟩
  ihave HL' := (pointsTo_share (PosShare.mem_left_op_right fullShare.left)).1 $$ HL
  icases HL' with ⟨HLL, HLR⟩
  ihave HR' := (pointsTo_share (PosShare.mem_left_op_right fullShare.right)).1 $$ HR
  icases HR' with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  iexact H3

/-- The physical post of the run: every windowed array holds contents the write-backs may have left. -/
def QC : PUnit × MemSt nD τ sig (Elt F) → Prop := fun r =>
  ∀ (c : Dev nD) (w : Fin cfg0.W), (rdats m 0 c).ArrAt w cfg0.N (r.2.mem ((cfg0.win w).arr.view.loc (c : Thread nD τ)))

set_option backward.isDefEq.respectTransparency.types false in
/-- The launch: from the body obligation, every weakly fair execution of @main terminates, nothing faults, and the
    windowed arrays end at contents the proof data allows. -/
theorem run_main (hbody : ∀ c : Dev nD, (rdats m 0 c).BodyObligation (defs₀ (F := F)) 𝒱₀ () Set.univ) :
    θ_run defs (onTc (τ := τ) (main (F := F))) (s₀ m ρ) (QC m) :=
  -- The kernel has no semaphore of its own and no prefetched table: the launch element is the pipeline's alone, the
  -- invariant is empty at both ends, and nothing of the unscoped or scoped buffers lies outside the windows.
  Pipeline.RDat.θ_run_region_pf (fun p => (cfgs p).toPCfg) (fun p => (cfgs p).toPCfg_adm) (rdats m) () cellOf_inj (0 : Fin 1)
    (osem := fun k : PEmpty => k.elim) winFacts₀0 (Pipeline.OwnSemFacts.none _) (Pipeline.PreFacts.none _) EP defs₀ 𝒱₀ m ρ main
    (hbody := hbody) (hne := block_pos0) (harr := arr_whole0) (hstage := stage_whole0) (howed := fun _ _ => rfl)
    (G := fun _ => BI.emp)
    (u₀ := initOf (Pipeline.cells cfgs cellOf_inj) (Pipeline.launchToks cfgs cellOf_inj))
    (hu₀ := by
      have h : (ownU (initOf (Pipeline.cells cfgs cellOf_inj) (Pipeline.launchToks cfgs cellOf_inj)) : sProp 𝕄)
          ⊢ BI.own ((EP (F := F)) (initOf (Pipeline.cells cfgs cellOf_inj) (Pipeline.launchToks cfgs cellOf_inj))) := BI.Entails.refl _
      iintro Hu
      ihave H := h $$ Hu
      imodintro
      isplitl [H]; · iexact H
      rw [BI.bigSep_emp_const]; iempintro)
    (V := fun c b => m ((c : Thread nD τ).loc b))
    (hmain := fun c Q => by
      -- @main is the one call of the region, then the return
      simp only [main, fn_kernel.body, Prog.lift, Prog.bind_op, Prog.bind_ret]
      iintro ⟨Hk, Hb⟩; iapply Hk; iexact Hb)
    (hsplit := arrays_split4 m)
    (hpf := fun _ k => k.elim0)
    (X := fun _ => iprop(emp)) (Y := fun _ => iprop(emp)) (Z := fun _ => iprop(emp))
    (hX := fun c => by iintro -; imodintro; isplitr <;> iempintro)
    (hin := fun c => by iintro -; iempintro)
    (hout := fun c => by
      rw [Pipeline.ownSems0_none, scopedRest0_eq]
      iintro -; isplitr; · iempintro
      isplitr <;> iempintro)
    (QY := fun _ _ => True)
    (hY := fun c s' => by
      iintro ⟨-, -, HSI⟩; imodintro
      isplitr; · ipureintro; trivial
      iexact HSI)
    (hQ := fun _ h c w => (h c).1 w)

end Cert.KernelIdeal.Hand

end
-- ==== Proof.BData.lean ====
/-
  The vocabulary of the kernel's frame and value, for any float instance `F`.
  The kernel walks the 8192 token rows in 16 grid points of 512 rows; at point `t` it reads four 128-row
  blocks of `x` (blocks 4t, 4t+1, 4t+2, 4t+3 of the 64), multiplies each with the transpose of `W`, adds the
  matching 128 rows of the noise, and stores the four 128 x 64 results into rows 512t .. 512t+511 of an output
  buffer that stays resident for the whole grid and is written back once, after the last point.
  Here: a 128-row block of `x` and of the noise, one 128-row block of the result, the whole result as one
  function of the arrays (`OUT`), and how one grid point changes the resident output buffer (`Upd`).
-/
import proofs.«110078_g14456859918464_retrytranche1_0_20_alg».proof.Proof.Gen.Kernel.Launch
import proofs.«110078_g14456859918464_retrytranche1_0_20_alg».proof.Proof.Gen.Kernel.Skeleton
import proofs.«110078_g14456859918464_retrytranche1_0_20_alg».proof.Proof.Gen.Kernel.Points
import Idealize.ShloMosaic.Lib.Pipeline.Kit
import Idealize.ShloMosaic.Lib.ValueIdx

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

/-- The proof's resource algebra: one copy of the rounds library's, the pipeline's. -/
abbrev EP : Emb (UR sig nD τ) (MT nD τ sig Unit (Elt F) ℕ (UR sig nD τ) ℕ) := emb₁

/-- The kernel's variants: none. -/
abbrev 𝒱₀ : Variants := Variants.none

/-! ## Blocks of rows -/

/-- Row `128 b + p` of an array of 8192 rows, for a block number `b < 64` and a row `p < 128` inside the block. -/
def rowOf (b : Fin 64) (p : Fin 128) : Fin 8192 := ⟨128 * b.val + p.val, by have := b.isLt; have := p.isLt; omega⟩

/-- Rows `128 b .. 128 b + 127` of `x`. -/
def xblk (x : Vec F S8192x4096 .f32) (b : Fin 64) : Vec F S128x4096 .f32 :=
  fun y => x (ix2 (rowOf b ⟨(y 0).val, (y 0).isLt⟩) (⟨(y 1).val, (y 1).isLt⟩ : Fin 4096))

/-- Rows `128 b .. 128 b + 127` of the noise. -/
def nzblk (nz : Vec F S8192x64 .f32) (b : Fin 64) : Vec F S128x64 .f32 :=
  fun y => nz (ix2 (rowOf b ⟨(y 0).val, (y 0).isLt⟩) (⟨(y 1).val, (y 1).isLt⟩ : Fin 64))

/-- Block `b` of the result: block `b` of `x` times the transpose of `W` (in bf16, accumulated in f32 from zero), plus block
    `b` of the noise — the kernel's own arithmetic on one 128-row block. -/
def outblk (x : Vec F S8192x4096 .f32) (W : Vec F S64x4096 .f32) (nz : Vec F S8192x64 .f32) (b : Fin 64) : FVec F S128x64 .f32 :=
  k0_pay3 W (xblk x b) (nzblk nz b)

/-- The whole result: entry `(r, e)` is entry `(r % 128, e)` of block `r / 128`. -/
def OUT (x : Vec F S8192x4096 .f32) (W : Vec F S64x4096 .f32) (nz : Vec F S8192x64 .f32) : Vec F S8192x64 .f32 :=
  fun j => outblk x W nz (⟨(j 0).val / 128, by have : (j 0).val < 8192 := (j 0).isLt; omega⟩ : Fin 64)
    (ix2 (⟨(j 0).val % 128, Nat.mod_lt _ (by decide)⟩ : Fin 128) (⟨(j 1).val, (j 1).isLt⟩ : Fin 64))

/-- What grid point `t` does to the resident output buffer: rows `512 t .. 512 t + 511` become the result's rows, every
    other row stays as it was. -/
def Upd (x : Vec F S8192x4096 .f32) (W : Vec F S64x4096 .f32) (nz : Vec F S8192x64 .f32) (t : Fin cfg0.N)
    (Y X : Vec F S8192x64 .f32) : Prop :=
  ∀ j : S8192x64.Idx, X j = if 512 * t.val ≤ (j 0).val ∧ (j 0).val < 512 * t.val + 512 then OUT x W nz j else Y j

/-- The grid has sixteen points. -/
theorem N16 : cfg0.N = 16 := N_0

/-- The block of `x` (and of the noise, and of the result) that window `s` of the four handles at grid point `t`: block `4 t + s`. -/
def blkNo (t : Fin cfg0.N) (s : Fin 4) : Fin 64 := ⟨4 * t.val + s.val, by have h : t.val < 16 := lt_of_lt_of_eq t.isLt N16; have := s.isLt; omega⟩

/-! ## The proof data -/

variable (m : (ℓ : Loc nD τ sig) → Buf (Elt F) ℓ) (ρ : Dev nD → PrngReg)

/-- The three argument arrays at launch, at their literal types. -/
abbrev xarr (c : Dev nD) : Vec F S8192x4096 .f32 := m ((c : Thread nD τ).loc main_arg0)
abbrev warr (c : Dev nD) : Vec F S64x4096 .f32 := m ((c : Thread nD τ).loc main_arg1)
abbrev nzarr (c : Dev nD) : Vec F S8192x64 .f32 := m ((c : Thread nD τ).loc main_arg2)

/-- The relational proof data of the one pipeline on device `c`: the arrays at their launch contents; the body leaves
    every input's staging buffer as it found it; it changes the output's resident buffer by `Upd`; no invariant; nothing
    owed; `x`, handed to the kernel through four windows, is held in four quarter shares, the other arrays whole. -/
def rdats (_ : Fin 1) (c : Dev nD) : RDat τ (Elt F) Unit ℕ (UR sig nD τ) ℕ cfg0 c where
  A w := m ((cfg0.win w).arr.view.loc (c : Thread nD τ))
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => Upd (xarr m c) (warr m c) (nzarr m c) t Y X
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

end Cert.Kernel.Hand

end
-- ==== Proof.BBody.lean ====
import proofs.«110078_g14456859918464_retrytranche1_0_20_alg».proof.Proof.BData
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

/-! ## The body on any whole staging memrefs

  The body loads `W`'s buffer and the four `x` buffers whole, loads four 128-row strips of the noise buffer at rows
  `512 i + 128 s`, and stores the four products-plus-noise into the same four strips of the output buffer. Run once,
  symbolically in the grid point: what the output buffer ends with is its entry contents with four pieces written. -/

/-- The four pieces the body writes into the output buffer, last store first: strip `s` (rows `512 i + 128 s` on) receives
    the body's arithmetic on the `s`-th `x` buffer, `W`'s buffer and the same strip of the noise buffer. -/
def pieces (i : grid0.Coords) (x0 x1 x2 x3 : Vec F S128x4096 .f32) (w : Vec F S64x4096 .f32) (nz : Vec F S8192x64 .f32) :
    List (View.Piece (Elt F) S8192x64 .f32) :=
  [⟨(Rect.unit (s := S8192x64) (k0_off1 i 384#32) S128x64.size (k0_off1_inb i 3)), k0_pay1 (k0_pay2 w) x3 (View.ld nz (Rect.unit (s := S8192x64) (k0_off1 i 384#32) S128x64.size (k0_off1_inb i 3)))⟩,
   ⟨(Rect.unit (s := S8192x64) (k0_off1 i 256#32) S128x64.size (k0_off1_inb i 2)), k0_pay5 w x2 (View.ld nz (Rect.unit (s := S8192x64) (k0_off1 i 256#32) S128x64.size (k0_off1_inb i 2)))⟩,
   ⟨(Rect.unit (s := S8192x64) (k0_off1 i 128#32) S128x64.size (k0_off1_inb i 1)), k0_pay4 w x1 (View.ld nz (Rect.unit (s := S8192x64) (k0_off1 i 128#32) S128x64.size (k0_off1_inb i 1)))⟩,
   ⟨(Rect.unit (s := S8192x64) (k0_off1 i 0#32) S128x64.size (k0_off1_inb i 0)), k0_pay3 w x0 (View.ld nz (Rect.unit (s := S8192x64) (k0_off1 i 0#32) S128x64.size (k0_off1_inb i 0)))⟩]

set_option maxHeartbeats 1000000 in
/-- The body's run on whole staging memrefs holding `x0 … x3`, `w`, `nz` and (the output's) `o`: it ends with the inputs'
    buffers as they were and the output's buffer at `o` with a list of pieces written, the list being the witness. -/
noncomputable def kernelRun (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (x0 x1 x2 x3 : Vec F S128x4096 .f32) (w : Vec F S64x4096 .f32) (nz : Vec F S8192x64 .f32) (o : Vec F S8192x64 .f32) :
    { L : List (View.Piece (Elt F) S8192x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w ∗ owns (c : Thread nD τ) arg6 fullShare nz ∗ owns (c : Thread nD τ) arg7 fullShare o
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w ∗ owns (c : Thread nD τ) arg6 fullShare nz
                ∗ (arg7.view.loc (c : Thread nD τ) ↦[arg7.view.set]{fullShare} arg7.view.writes (Elt F) (harg7.unread o) L)) -∗ K ⟨⟩))
          ⊢ wp frame (wpE (defs₀ (F := F)) Variants.none c none) E (cc0__router_block i arg1 harg1 arg2 harg2 arg3 harg3 arg4 harg4 arg5 harg5 arg6 harg6 arg7 harg7) K } := by
  refine ⟨?_, fun E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexact H6

/-- The pieces the run found are the four strips' pieces: each whole load reads its buffer's contents, each strip load
    the noise buffer's contents on the strip. -/
theorem kernelRun_pieces (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (x0 x1 x2 x3 : Vec F S128x4096 .f32) (w : Vec F S64x4096 .f32) (nz : Vec F S8192x64 .f32) (o : Vec F S8192x64 .f32) :
    (kernelRun c i arg1 harg1 arg2 harg2 arg3 harg3 arg4 harg4 arg5 harg5 arg6 harg6 arg7 harg7 x0 x1 x2 x3 w nz o).1 = pieces i x0 x1 x2 x3 w nz := by
  have hz : (![0, 0] : Fin 2 → Nat) = fun _ => 0 := funext fun a => by fin_cases a <;> rfl
  unfold kernelRun pieces
  dsimp only
  sl_unfold_words
  simp only [View.readAt_eq_ld, harg1.read_unread, harg2.read_unread, harg3.read_unread, harg4.read_unread, harg5.read_unread,
    harg6.read_unread, View.ld_unit_zero (S := S128x4096) hz, View.ld_unit_zero (S := S64x4096) hz]

end Cert.Kernel.Hand

end
-- ==== Proof.BFinds.lean ====
import proofs.«110078_g14456859918464_retrytranche1_0_20_alg».proof.Proof.BData

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each window's staging buffer -/

/-- At grid point `t`, window 0 reads the block of `x` in block row `4 t + 0`, block column `0`. -/
private theorem idx_x0 : ∀ t : Fin cfg0.N, win0_0.index t (0 : Fin 2) = 4 * t.val + 0 ∧ win0_0.index t (1 : Fin 2) = 0 :=
  (by decide +kernel : ∀ t : Fin grid0.N, win0_0.index t (0 : Fin 2) = 4 * t.val + 0 ∧ win0_0.index t (1 : Fin 2) = 0)

theorem finds_x0 (c : Dev nD) (t : Fin cfg0.N) (X : Vec F S128x4096 .f32) (h : (rdats m 0 c).Finds (0 : Fin 7) t X) :
    X = xblk (xarr m c) (blkNo t 0) := by
  -- the window is fetched at every point, and its block lies inside the array: the buffer holds the block
  rw [(rdats m 0 c).finds_of_fetch (fetch0_0 t)] at h
  obtain ⟨d, rfl⟩ := h
  obtain ⟨e0, e1⟩ := idx_x0 t
  funext y
  have hm : (cfg0.win 0).moved (cfg0.grid.coords t) y = true :=
    ((cfg0.win 0).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_0.index t (0 : Fin 2) * 128 + 1 * (y 0).val = 128 * (4 * t.val + 0) + (y 0).val
    rw [e0]; omega
  | ⟨1, _⟩ =>
    show win0_0.index t (1 : Fin 2) * 4096 + 1 * (y 1).val = (y 1).val
    rw [e1]; omega

/-- At grid point `t`, window 1 reads the block of `x` in block row `4 t + 1`, block column `0`. -/
private theorem idx_x1 : ∀ t : Fin cfg0.N, win0_1.index t (0 : Fin 2) = 4 * t.val + 1 ∧ win0_1.index t (1 : Fin 2) = 0 :=
  (by decide +kernel : ∀ t : Fin grid0.N, win0_1.index t (0 : Fin 2) = 4 * t.val + 1 ∧ win0_1.index t (1 : Fin 2) = 0)

theorem finds_x1 (c : Dev nD) (t : Fin cfg0.N) (X : Vec F S128x4096 .f32) (h : (rdats m 0 c).Finds (1 : Fin 7) t X) :
    X = xblk (xarr m c) (blkNo t 1) := by
  -- the window is fetched at every point, and its block lies inside the array: the buffer holds the block
  rw [(rdats m 0 c).finds_of_fetch (fetch0_1 t)] at h
  obtain ⟨d, rfl⟩ := h
  obtain ⟨e0, e1⟩ := idx_x1 t
  funext y
  have hm : (cfg0.win 1).moved (cfg0.grid.coords t) y = true :=
    ((cfg0.win 1).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_1.index t (0 : Fin 2) * 128 + 1 * (y 0).val = 128 * (4 * t.val + 1) + (y 0).val
    rw [e0]; omega
  | ⟨1, _⟩ =>
    show win0_1.index t (1 : Fin 2) * 4096 + 1 * (y 1).val = (y 1).val
    rw [e1]; omega

/-- At grid point `t`, window 2 reads the block of `x` in block row `4 t + 2`, block column `0`. -/
private theorem idx_x2 : ∀ t : Fin cfg0.N, win0_2.index t (0 : Fin 2) = 4 * t.val + 2 ∧ win0_2.index t (1 : Fin 2) = 0 :=
  (by decide +kernel : ∀ t : Fin grid0.N, win0_2.index t (0 : Fin 2) = 4 * t.val + 2 ∧ win0_2.index t (1 : Fin 2) = 0)

theorem finds_x2 (c : Dev nD) (t : Fin cfg0.N) (X : Vec F S128x4096 .f32) (h : (rdats m 0 c).Finds (2 : Fin 7) t X) :
    X = xblk (xarr m c) (blkNo t 2) := by
  -- the window is fetched at every point, and its block lies inside the array: the buffer holds the block
  rw [(rdats m 0 c).finds_of_fetch (fetch0_2 t)] at h
  obtain ⟨d, rfl⟩ := h
  obtain ⟨e0, e1⟩ := idx_x2 t
  funext y
  have hm : (cfg0.win 2).moved (cfg0.grid.coords t) y = true :=
    ((cfg0.win 2).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_2.index t (0 : Fin 2) * 128 + 1 * (y 0).val = 128 * (4 * t.val + 2) + (y 0).val
    rw [e0]; omega
  | ⟨1, _⟩ =>
    show win0_2.index t (1 : Fin 2) * 4096 + 1 * (y 1).val = (y 1).val
    rw [e1]; omega

/-- At grid point `t`, window 3 reads the block of `x` in block row `4 t + 3`, block column `0`. -/
private theorem idx_x3 : ∀ t : Fin cfg0.N, win0_3.index t (0 : Fin 2) = 4 * t.val + 3 ∧ win0_3.index t (1 : Fin 2) = 0 :=
  (by decide +kernel : ∀ t : Fin grid0.N, win0_3.index t (0 : Fin 2) = 4 * t.val + 3 ∧ win0_3.index t (1 : Fin 2) = 0)

theorem finds_x3 (c : Dev nD) (t : Fin cfg0.N) (X : Vec F S128x4096 .f32) (h : (rdats m 0 c).Finds (3 : Fin 7) t X) :
    X = xblk (xarr m c) (blkNo t 3) := by
  -- the window is fetched at every point, and its block lies inside the array: the buffer holds the block
  rw [(rdats m 0 c).finds_of_fetch (fetch0_3 t)] at h
  obtain ⟨d, rfl⟩ := h
  obtain ⟨e0, e1⟩ := idx_x3 t
  funext y
  have hm : (cfg0.win 3).moved (cfg0.grid.coords t) y = true :=
    ((cfg0.win 3).moved_iff _ y).mpr fun a => (y a).isLt
  unfold RDat.fetched Window.fill
  rw [dif_pos hm]
  unfold RDat.blockOf
  rw [View.read_apply]
  show xarr m c _ = xarr m c _
  congr 1
  funext a
  apply Fin.ext
  -- an entry of the block sits at block index × block size + its place inside the block
  match a with
  | ⟨0, _⟩ =>
    show win0_3.index t (0 : Fin 2) * 128 + 1 * (y 0).val = 128 * (4 * t.val + 3) + (y 0).val
    rw [e0]; omega
  | ⟨1, _⟩ =>
    show win0_3.index t (1 : Fin 2) * 4096 + 1 * (y 1).val = (y 1).val
    rw [e1]; omega

/-- At every grid point window 4 is the one block `(0, 0)`: the whole of `W`. -/
private theorem idx_w : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- A fetch of window 4 fills its buffer with the whole of `W`. -/
private theorem fetched_w (c : Dev nD) (t : Fin cfg0.N) (d : Vec F S64x4096 .f32) :
    (rdats m 0 c).fetched (4 : Fin 7) t d = warr m c := by
  obtain ⟨e0, e1⟩ := idx_w t
  funext y
  have hm : (cfg0.win 4).moved (cfg0.grid.coords t) y = true :=
    ((cfg0.win 4).moved_iff _ y).mpr fun a => (y a).isLt
  unfold RDat.fetched Window.fill
  rw [dif_pos hm]
  unfold RDat.blockOf
  rw [View.read_apply]
  show warr m c _ = warr m c _
  congr 1
  funext a
  apply Fin.ext
  match a with
  | ⟨0, _⟩ =>
    show win0_4.index t (0 : Fin 2) * 64 + 1 * (y 0).val = (y 0).val
    rw [e0]; omega
  | ⟨1, _⟩ =>
    show win0_4.index t (1 : Fin 2) * 4096 + 1 * (y 1).val = (y 1).val
    rw [e1]; omega

/-- Window 4 is fetched at the first point and left as found by every point: its buffer holds `W` throughout. -/
private theorem finds_w_aux (c : Dev nD) : ∀ (n : ℕ) (hn : n < cfg0.N) (X : Vec F S64x4096 .f32),
    (rdats m 0 c).Finds (4 : Fin 7) ⟨n, hn⟩ X → X = warr m c := by
  intro n
  induction n with
  | zero =>
    intro hn X h
    rw [(rdats m 0 c).finds_of_fetch ((fetch0_4 ⟨0, hn⟩).mpr (Nat.zero_mod 16))] at h
    obtain ⟨d, rfl⟩ := h
    exact fetched_w m c _ d
  | succ k ih =>
    intro hn X h
    have hN : cfg0.N = 16 := N16
    -- a point after the first does not fetch the window
    have hf : (cfg0.win 4).fetch ⟨k + 1, hn⟩ = false := by
      cases hb : (cfg0.win 4).fetch ⟨k + 1, hn⟩ with
      | false => rfl
      | true =>
        have h0 : (k + 1) % 16 = 0 := (fetch0_4 ⟨k + 1, hn⟩).mp hb
        omega
    rw [(rdats m 0 c).finds_of_pos hf (Nat.succ_ne_zero k)] at h
    rcases h with hfl | ⟨Y, hY, hYX⟩
    · -- an input is never written back
      exact absurd hfl (by
        have : ∀ t : Fin cfg0.N, (cfg0.win 4).flush t = false :=
          (by decide +kernel : ∀ t : Fin grid0.N, win0_4.flush t = false)
        rw [this]; exact Bool.false_ne_true)
    · -- the previous point left the buffer as it found it
      have hY' : Y = warr m c := ih (by omega) Y hY
      have e : X = Y := by dsimp only [rdats] at hYX; exact hYX
      rw [e, hY']

theorem finds_w (c : Dev nD) (t : Fin cfg0.N) (X : Vec F S64x4096 .f32) (h : (rdats m 0 c).Finds (4 : Fin 7) t X) :
    X = warr m c :=
  finds_w_aux m c t.val t.isLt X h

/-- At every grid point window 5 is the one block `(0, 0)`: the whole of the noise. -/
private theorem idx_nz : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- A fetch of window 5 fills its buffer with the whole of the noise. -/
private theorem fetched_nz (c : Dev nD) (t : Fin cfg0.N) (d : Vec F S8192x64 .f32) :
    (rdats m 0 c).fetched (5 : Fin 7) t d = nzarr m c := by
  obtain ⟨e0, e1⟩ := idx_nz t
  funext y
  have hm : (cfg0.win 5).moved (cfg0.grid.coords t) y = true :=
    ((cfg0.win 5).moved_iff _ y).mpr fun a => (y a).isLt
  unfold RDat.fetched Window.fill
  rw [dif_pos hm]
  unfold RDat.blockOf
  rw [View.read_apply]
  show nzarr m c _ = nzarr m c _
  congr 1
  funext a
  apply Fin.ext
  match a with
  | ⟨0, _⟩ =>
    show win0_5.index t (0 : Fin 2) * 8192 + 1 * (y 0).val = (y 0).val
    rw [e0]; omega
  | ⟨1, _⟩ =>
    show win0_5.index t (1 : Fin 2) * 64 + 1 * (y 1).val = (y 1).val
    rw [e1]; omega

/-- Window 5 is fetched at the first point and left as found by every point: its buffer holds the noise throughout. -/
private theorem finds_nz_aux (c : Dev nD) : ∀ (n : ℕ) (hn : n < cfg0.N) (X : Vec F S8192x64 .f32),
    (rdats m 0 c).Finds (5 : Fin 7) ⟨n, hn⟩ X → X = nzarr m c := by
  intro n
  induction n with
  | zero =>
    intro hn X h
    rw [(rdats m 0 c).finds_of_fetch ((fetch0_5 ⟨0, hn⟩).mpr (Nat.zero_mod 16))] at h
    obtain ⟨d, rfl⟩ := h
    exact fetched_nz m c _ d
  | succ k ih =>
    intro hn X h
    have hN : cfg0.N = 16 := N16
    -- a point after the first does not fetch the window
    have hf : (cfg0.win 5).fetch ⟨k + 1, hn⟩ = false := by
      cases hb : (cfg0.win 5).fetch ⟨k + 1, hn⟩ with
      | false => rfl
      | true =>
        have h0 : (k + 1) % 16 = 0 := (fetch0_5 ⟨k + 1, hn⟩).mp hb
        omega
    rw [(rdats m 0 c).finds_of_pos hf (Nat.succ_ne_zero k)] at h
    rcases h with hfl | ⟨Y, hY, hYX⟩
    · -- an input is never written back
      exact absurd hfl (by
        have : ∀ t : Fin cfg0.N, (cfg0.win 5).flush t = false :=
          (by decide +kernel : ∀ t : Fin grid0.N, win0_5.flush t = false)
        rw [this]; exact Bool.false_ne_true)
    · -- the previous point left the buffer as it found it
      have hY' : Y = nzarr m c := ih (by omega) Y hY
      have e : X = Y := by dsimp only [rdats] at hYX; exact hYX
      rw [e, hY']

theorem finds_nz (c : Dev nD) (t : Fin cfg0.N) (X : Vec F S8192x64 .f32) (h : (rdats m 0 c).Finds (5 : Fin 7) t X) :
    X = nzarr m c :=
  finds_nz_aux m c t.val t.isLt X h

/-- Before point `n` the resident output buffer already holds the result's rows below `512 n`: by induction on `n`. -/
private theorem finds_out_aux (c : Dev nD) : ∀ (n : ℕ) (hn : n < cfg0.N) (Y : Vec F S8192x64 .f32),
    (rdats m 0 c).Finds (6 : Fin 7) ⟨n, hn⟩ Y →
    ∀ j : S8192x64.Idx, (j 0).val < 512 * n → Y j = OUT (xarr m c) (warr m c) (nzarr m c) j := by
  intro n
  induction n with
  | zero => intro hn Y h j hj; omega
  | succ k ih =>
    intro hn Y h j hj
    have hN : cfg0.N = 16 := N16
    have hf : (cfg0.win 6).fetch ⟨k + 1, hn⟩ = false :=
      (by decide +kernel : ∀ t : Fin grid0.N, win0_6.fetch t = false) _
    rw [(rdats m 0 c).finds_of_pos hf (Nat.succ_ne_zero k)] at h
    rcases h with hfl | ⟨Y', hY', hU⟩
    · -- the previous point is not the last: it does not write the buffer back
      have h15 : (k + 1 - 1) % 16 = 15 := (flush0_6 _).mp hfl
      omega
    · -- the previous point rewrote rows 512 k .. 512 k + 511 and kept the others
      have hU' : Upd (xarr m c) (warr m c) (nzarr m c) ⟨k, by omega⟩ Y' Y := by
        dsimp only [rdats] at hU; exact hU
      rw [hU' j]
      by_cases hr : 512 * k ≤ (j 0).val ∧ (j 0).val < 512 * k + 512
      · rw [if_pos hr]
      · rw [if_neg hr]
        exact ih (by omega) Y' hY' j (by omega)

/-- Before point `t` the resident output buffer already holds the result's rows below `512 t`. -/
theorem finds_out (c : Dev nD) (t : Fin cfg0.N) (Y : Vec F S8192x64 .f32) (h : (rdats m 0 c).Finds (6 : Fin 7) t Y) :
    ∀ j : S8192x64.Idx, (j 0).val < 512 * t.val → Y j = OUT (xarr m c) (warr m c) (nzarr m c) j :=
  finds_out_aux m c t.val t.isLt Y h

/-! ## The arrays after the run -/

/-- Window 6 is one block, the whole result array, at every point. -/
private theorem idx_out : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The result array after the one write-back: the whole result. -/
theorem final_out (c : Dev nD) (G : Buf (Elt F) ((cfg0.win (6 : Fin 7)).arr.view.loc (c : Thread nD τ)))
    (h : (rdats m 0 c).ArrAt (6 : Fin 7) cfg0.N G) : G = OUT (xarr m c) (warr m c) (nzarr m c) := by
  have hN : cfg0.N = 16 := N16
  have h15 : (15 : ℕ) < cfg0.N := by omega
  have hfl : (cfg0.win 6).flush ⟨15, h15⟩ = true := (flush0_6 ⟨15, h15⟩).mpr rfl
  have hstep : (rdats m 0 c).ArrStep 6 ⟨15, h15⟩ ((rdats m 0 c).ArrAt 6 15) G := by
    rw [hN] at h
    have h2 : (rdats m 0 c).ArrAt 6 (15 + 1) G := h
    rw [RDat.ArrAt] at h2
    simp only [dif_pos h15, if_pos hfl] at h2
    exact h2
  obtain ⟨G₀, X, -, hL, rfl⟩ := hstep
  -- the block written back is the whole array, so the array ends holding what the buffer held
  obtain ⟨e0, e1⟩ := idx_out ⟨15, h15⟩
  have hz : (fun a => win0_6.index ⟨15, h15⟩ a * main_v0.ty.shape.size a) = fun _ => 0 := funext fun a => by
    match a with
    | ⟨0, _⟩ => show win0_6.index ⟨15, h15⟩ (0 : Fin 2) * 8192 = 0; rw [e0, Nat.zero_mul]
    | ⟨1, _⟩ => show win0_6.index ⟨15, h15⟩ (1 : Fin 2) * 64 = 0; rw [e1, Nat.zero_mul]
  have hw : ((cfg0.win 6).blk ⟨15, h15⟩).view.write (Elt F) G₀ ((cfg0.win 6).cut (cfg0.grid.coords ⟨15, h15⟩) X) Finset.univ = X :=
    Memref.write_access_unit_zero_univ (Elt F) main_v0 hz (fun a => by rw [congrFun hz a, Nat.zero_add]) G₀ X
  rw [hw]
  -- the last point rewrote rows 7680 .. 8191; the rows below it were the result's already
  obtain ⟨Y, hY, hU⟩ := hL
  have hU' : Upd (xarr m c) (warr m c) (nzarr m c) ⟨15, h15⟩ Y X := by
    dsimp only [rdats] at hU; exact hU
  funext j
  rw [hU' j]
  have hj : (j 0).val < 8192 := (j 0).isLt
  by_cases hr : 512 * 15 ≤ (j 0).val ∧ (j 0).val < 512 * 15 + 512
  · rw [if_pos hr]
  · rw [if_neg hr]
    exact finds_out m c ⟨15, h15⟩ Y hY j (by show (j 0).val < 512 * 15; omega)

/-- An input array ends as it began. -/
theorem final_in (c : Dev nD) (w : Fin 7) (hw : w ≠ 6) (G : Buf (Elt F) ((cfg0.win w).arr.view.loc (c : Thread nD τ)))
    (h : (rdats m 0 c).ArrAt w cfg0.N G) : G = (rdats m 0 c).A w := by
  have hin : (cfg0.win w).isOut = false := by
    revert hw; fin_cases w <;> intro hw <;> first | rfl | exact absurd rfl hw
  rw [(rdats m 0 c).ArrAt_in w hin] at h
  exact h

end Cert.Kernel.Hand

end
-- ==== Proof.BOblig.lean ====
import proofs.«110078_g14456859918464_retrytranche1_0_20_alg».proof.Proof.BBody
import proofs.«110078_g14456859918464_retrytranche1_0_20_alg».proof.Proof.BFinds

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

/-! ## The strips -/

/-- At grid point `t` the four strips start at rows `512 t`, `512 t + 128`, `512 t + 256`, `512 t + 384`, column 0: the body's
    32-bit index arithmetic does not wrap on the sixteen points. -/
theorem off_eq : ∀ t : Fin grid0.N,
    (k0_off1 (grid0.coords t) 0#32 0 = 512 * t.val ∧ k0_off1 (grid0.coords t) 0#32 1 = 0)
    ∧ (k0_off1 (grid0.coords t) 128#32 0 = 512 * t.val + 128 ∧ k0_off1 (grid0.coords t) 128#32 1 = 0)
    ∧ (k0_off1 (grid0.coords t) 256#32 0 = 512 * t.val + 256 ∧ k0_off1 (grid0.coords t) 256#32 1 = 0)
    ∧ (k0_off1 (grid0.coords t) 384#32 0 = 512 * t.val + 384 ∧ k0_off1 (grid0.coords t) 384#32 1 = 0) := by
  decide +kernel

/-- The result at an entry whose row is `128 b + p`: entry `(p, column)` of block `b`. -/
theorem OUT_apply (x : Vec F S8192x4096 .f32) (W : Vec F S64x4096 .f32) (nz : Vec F S8192x64 .f32) (j : S8192x64.Idx)
    (b : Fin 64) (y : S128x64.Idx) (hr : (j 0).val = 128 * b.val + (y 0).val) (hc : (j 1).val = (y 1).val) :
    OUT x W nz j = outblk x W nz b y := by
  have hp : (y 0).val < 128 := (y 0).isLt
  have h1 : (j 0).val / 128 = b.val := by omega
  have h2 : (j 0).val % 128 = (y 0).val := by omega
  unfold OUT
  refine congr (congrArg (outblk x W nz) (Fin.ext h1)) ?_
  funext a
  match a with
  | ⟨0, _⟩ => exact Fin.ext h2
  | ⟨1, _⟩ => exact Fin.ext hc

/-- A strip's piece is the result on the strip: for the strip of block `b` (rows `128 b` on, all 64 columns), the body's
    arithmetic on block `b` of `x`, on `W` and on the strip of the noise is the result read at the strip's entries. -/
theorem strip_eq (x : Vec F S8192x4096 .f32) (W : Vec F S64x4096 .f32) (nz : Vec F S8192x64 .f32) (b : Fin 64)
    (off : Fin 2 → ℕ) (h0 : off 0 = 128 * b.val) (h1 : off 1 = 0) (inb : ∀ a, off a + S128x64.size a ≤ S8192x64.size a)
    (y : S128x64.Idx) :
    k0_pay3 W (xblk x b) (View.ld nz (Rect.unit (s := S8192x64) off S128x64.size inb)) y
      = OUT x W nz ((Rect.unit (s := S8192x64) off S128x64.size inb).emb y) := by
  have hld : View.ld nz (Rect.unit (s := S8192x64) off S128x64.size inb) = nzblk nz b := by
    funext y'
    show nz ((Rect.unit (s := S8192x64) off S128x64.size inb).idx y') = _
    unfold nzblk
    refine congrArg nz (funext fun a => Fin.ext ?_)
    match a with
    | ⟨0, _⟩ =>
      show off 0 + 1 * (y' 0).val = 128 * b.val + (y' 0).val
      rw [h0]; omega
    | ⟨1, _⟩ =>
      show off 1 + 1 * (y' 1).val = (y' 1).val
      rw [h1]; omega
  rw [hld]
  refine (OUT_apply x W nz _ b y ?_ ?_).symm
  · show off 0 + 1 * (y 0).val = _
    rw [h0]; omega
  · show off 1 + 1 * (y 1).val = _
    rw [h1]; omega

/-- One grid point's change of the output buffer, from the four pieces: whatever view the buffer is read through and whatever
    it held (`f`), after the four strips are written rows `512 t .. 512 t + 511` read the result and every other row what
    it read before. -/
theorem upd_pieces (x : Vec F S8192x4096 .f32) (W : Vec F S64x4096 .f32) (nz : Vec F S8192x64 .f32) (t : Fin cfg0.N)
    {sig' : RefSig} {κ : Kind} {sp : Space} (v : View sig' κ sp S8192x64 .f32) (f : v.ty.Contents (Elt F)) :
    Upd x W nz t (v.read (Elt F) f)
      (v.read (Elt F) (v.writes (Elt F) f
        (pieces (grid0.coords t) (xblk x (blkNo t 0)) (xblk x (blkNo t 1)) (xblk x (blkNo t 2)) (xblk x (blkNo t 3)) W nz))) := by
  intro j
  obtain ⟨⟨a0, c0⟩, ⟨a1, c1⟩, ⟨a2, c2⟩, ⟨a3, c3⟩⟩ := off_eq t
  have hj0 : (j 0).val < 8192 := (j 0).isLt
  have hj1 : (j 1).val < 64 := (j 1).isLt
  have ht : t.val < 16 := lt_of_lt_of_eq t.isLt N16
  -- each piece's payload is the result on its strip
  have hpieces : ∀ p ∈ pieces (grid0.coords t) (xblk x (blkNo t 0)) (xblk x (blkNo t 1)) (xblk x (blkNo t 2)) (xblk x (blkNo t 3)) W nz,
      ∀ y : p.1.shape.Idx, p.2 y = OUT x W nz (p.1.emb y) := by
    intro p hp
    simp only [pieces, List.mem_cons, List.mem_nil_iff, _root_.or_false] at hp
    rcases hp with rfl | rfl | rfl | rfl
    · exact fun y => strip_eq x W nz (blkNo t 3) _ (by rw [a3]; show _ = 128 * (4 * t.val + 3); omega) c3 _ y
    · exact fun y => strip_eq x W nz (blkNo t 2) _ (by rw [a2]; show _ = 128 * (4 * t.val + 2); omega) c2 _ y
    · exact fun y => strip_eq x W nz (blkNo t 1) _ (by rw [a1]; show _ = 128 * (4 * t.val + 1); omega) c1 _ y
    · exact fun y => strip_eq x W nz (blkNo t 0) _ (by rw [a0]; show _ = 128 * (4 * t.val + 0); omega) c0 _ y
  -- membership in a strip, in numbers
  have hmem : ∀ (off : Fin 2 → ℕ) (inb : ∀ a, off a + S128x64.size a ≤ S8192x64.size a) (r : ℕ), off 0 = r → off 1 = 0 →
      (j ∈ (Rect.unit (s := S8192x64) off S128x64.size inb).set ↔ r ≤ (j 0).val ∧ (j 0).val < r + 128) := by
    intro off inb r h0 h1
    rw [Rect.mem_set_unit]
    constructor
    · intro h
      have := h 0
      rw [h0] at this
      exact this
    · intro h a
      match a with
      | ⟨0, _⟩ =>
        show off 0 ≤ (j 0).val ∧ (j 0).val < off 0 + 128
        rw [h0]; exact h
      | ⟨1, _⟩ =>
        show off 1 ≤ (j 1).val ∧ (j 1).val < off 1 + 64
        rw [h1]; omega
  by_cases h : 512 * t.val ≤ (j 0).val ∧ (j 0).val < 512 * t.val + 512
  · rw [if_pos h]
    have hcov : ∃ p ∈ pieces (grid0.coords t) (xblk x (blkNo t 0)) (xblk x (blkNo t 1)) (xblk x (blkNo t 2)) (xblk x (blkNo t 3)) W nz,
        j ∈ p.1.set := by
      unfold pieces
      by_cases h3 : 512 * t.val + 384 ≤ (j 0).val
      · refine ⟨_, List.mem_cons_self, ?_⟩
        exact (hmem _ (k0_off1_inb (grid0.coords t) 3) _ a3 c3).mpr ⟨h3, by omega⟩
      by_cases h2 : 512 * t.val + 256 ≤ (j 0).val
      · refine ⟨_, List.mem_cons_of_mem _ List.mem_cons_self, ?_⟩
        exact (hmem _ (k0_off1_inb (grid0.coords t) 2) _ a2 c2).mpr ⟨h2, by omega⟩
      by_cases h1 : 512 * t.val + 128 ≤ (j 0).val
      · refine ⟨_, List.mem_cons_of_mem _ (List.mem_cons_of_mem _ List.mem_cons_self), ?_⟩
        exact (hmem _ (k0_off1_inb (grid0.coords t) 1) _ a1 c1).mpr ⟨h1, by omega⟩
      · refine ⟨_, List.mem_cons_of_mem _ (List.mem_cons_of_mem _ (List.mem_cons_of_mem _ List.mem_cons_self)), ?_⟩
        exact (hmem _ (k0_off1_inb (grid0.coords t) 0) _ a0 c0).mpr ⟨h.1, by omega⟩
    rw [View.read_writes_apply_eq_canon v f j _ hcov]
    exact View.canon_apply_of_pieces (OUT x W nz) _ hpieces j hcov
  · rw [if_neg h]
    refine View.read_writes_apply_of_forall_not_mem v f j _ fun p hp hjp => h ?_
    simp only [pieces, List.mem_cons, List.mem_nil_iff, _root_.or_false] at hp
    rcases hp with rfl | rfl | rfl | rfl
    · have := (hmem _ (k0_off1_inb (grid0.coords t) 3) _ a3 c3).mp hjp; omega
    · have := (hmem _ (k0_off1_inb (grid0.coords t) 2) _ a2 c2).mp hjp; omega
    · have := (hmem _ (k0_off1_inb (grid0.coords t) 1) _ a1 c1).mp hjp; omega
    · have := (hmem _ (k0_off1_inb (grid0.coords t) 0) _ a0 c0).mp hjp; omega

/-! ## The body obligation -/

variable (m : (ℓ : Loc nD τ sig) → Buf (Elt F) ℓ)

/-- The body at grid point `t` on whole staging memrefs holding the point's four blocks of `x`, `W`, the noise and (the
    output's) any contents `o`: it leaves the inputs' buffers as they were and the output's changed by `Upd`. -/
theorem sound_body (c : Dev nD) (E : Set ℕ) (t : Fin cfg0.N) (arg1 : Memref sig .tc .vmem S128x4096 .f32) (harg1 : arg1.IsWhole) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S64x4096 .f32) (harg5 : arg5.IsWhole) (arg6 : Memref sig .tc .vmem S8192x64 .f32) (harg6 : arg6.IsWhole) (arg7 : Memref sig .tc .vmem S8192x64 .f32) (harg7 : arg7.IsWhole)
    (o : Vec F S8192x64 .f32) (K : PUnit → sProp 𝕄) :
    iprop(owns (c : Thread nD τ) arg1 fullShare (xblk (xarr m c) (blkNo t 0))
        ∗ owns (c : Thread nD τ) arg2 fullShare (xblk (xarr m c) (blkNo t 1))
        ∗ owns (c : Thread nD τ) arg3 fullShare (xblk (xarr m c) (blkNo t 2))
        ∗ owns (c : Thread nD τ) arg4 fullShare (xblk (xarr m c) (blkNo t 3))
        ∗ owns (c : Thread nD τ) arg5 fullShare (warr m c)
        ∗ owns (c : Thread nD τ) arg6 fullShare (nzarr m c)
        ∗ owns (c : Thread nD τ) arg7 fullShare o
        ∗ (iprop(owns (c : Thread nD τ) arg1 fullShare (xblk (xarr m c) (blkNo t 0))
        ∗ owns (c : Thread nD τ) arg2 fullShare (xblk (xarr m c) (blkNo t 1))
        ∗ owns (c : Thread nD τ) arg3 fullShare (xblk (xarr m c) (blkNo t 2))
        ∗ owns (c : Thread nD τ) arg4 fullShare (xblk (xarr m c) (blkNo t 3))
        ∗ owns (c : Thread nD τ) arg5 fullShare (warr m c)
        ∗ owns (c : Thread nD τ) arg6 fullShare (nzarr m c)
              ∗ (∃ X, ⌜Upd (xarr m c) (warr m c) (nzarr m c) t o X⌝ ∗ owns (c : Thread nD τ) arg7 fullShare X)) -∗ K ⟨⟩))
      ⊢ wp frame (wpE (defs₀ (F := F)) Variants.none c none) E (cc0__router_block (grid0.coords t) arg1 harg1 arg2 harg2 arg3 harg3 arg4 harg4 arg5 harg5 arg6 harg6 arg7 harg7) K := by
  iintro ⟨H0, H1, H2, H3, H4, H5, H6, Hk⟩
  iapply ((kernelRun c (grid0.coords t) arg1 harg1 arg2 harg2 arg3 harg3 arg4 harg4 arg5 harg5 arg6 harg6 arg7 harg7 (xblk (xarr m c) (blkNo t 0)) (xblk (xarr m c) (blkNo t 1)) (xblk (xarr m c) (blkNo t 2)) (xblk (xarr m c) (blkNo t 3)) (warr m c) (nzarr m c) o).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0]; · iexact H0
  isplitl [H1]; · iexact H1
  isplitl [H2]; · iexact H2
  isplitl [H3]; · iexact H3
  isplitl [H4]; · iexact H4
  isplitl [H5]; · iexact H5
  iexists (arg7.view.read (Elt F) (arg7.view.writes (Elt F) (harg7.unread o)
    (kernelRun c (grid0.coords t) arg1 harg1 arg2 harg2 arg3 harg3 arg4 harg4 arg5 harg5 arg6 harg6 arg7 harg7 (xblk (xarr m c) (blkNo t 0)) (xblk (xarr m c) (blkNo t 1)) (xblk (xarr m c) (blkNo t 2)) (xblk (xarr m c) (blkNo t 3)) (warr m c) (nzarr m c) o).1))
  isplitr
  · ipureintro
    rw [kernelRun_pieces]
    have h := upd_pieces (xarr m c) (warr m c) (nzarr m c) t arg7.view (harg7.unread o)
    rwa [harg7.read_unread] at h
  · unfold owns
    iexists _
    isplitr
    · ipureintro; rfl
    iexact H6

/-- The library's body obligation for the relational proof data: whatever the seven current buffers may hold at point `t`
    — the four `x` windows their blocks, `W`'s and the noise's the arrays, the output's anything —, the body runs and leaves each
    input's buffer as handed and the output's in the relation `Upd` to what was handed. -/
theorem body_obligation (c : Dev nD) : (rdats m 0 c).BodyObligation (defs₀ (F := F)) 𝒱₀ () Set.univ := fun t Y hY => by
  rw [bigSep_W0, bigSep_W0]
  rw [show (rdats m 0 c).Φ t.succ = (rdats m 0 c).Φ t.castSucc from rfl,
    show (rdats m 0 c).owesAt () t.succ = (rdats m 0 c).owesAt () t.castSucc from rfl]
  have e0 := finds_x0 m c t (Y 0) (hY 0)
  have e1 := finds_x1 m c t (Y 1) (hY 1)
  have e2 := finds_x2 m c t (Y 2) (hY 2)
  have e3 := finds_x3 m c t (Y 3) (hY 3)
  have e4 := finds_w m c t (Y 4) (hY 4)
  have e5 := finds_nz m c t (Y 5) (hY 5)
  rw [e0, e1, e2, e3, e4, e5]
  change _ ⊢ wp frame (wpE (defs₀ (F := F)) Variants.none c none) Set.univ (bodyAt0 t) _
  iintro ⟨HΦ, Ho, H0, H1, H2, H3, H4, H5, H6⟩
  iapply (sound_body m c Set.univ t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%X, %hX, H6⟩⟩
  isplitl [HΦ]; · iexact HΦ
  isplitl [Ho]; · iexact Ho
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  · iexists X; isplitr; · ipureintro; exact hX
    iexact H6

end Cert.Kernel.Hand

end
-- ==== Proof.BLaunch.lean ====
import proofs.«110078_g14456859918464_retrytranche1_0_20_alg».proof.Proof.BData

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry

The seven windows stand on four buffers: `x` (windows 0 to 3), `W` (window 4), the noise (window 5) and the
result (window 6). At launch each buffer is held whole at the full share. The full share of `x` is the composite of
its two halves, and each half of its own two halves, so `x` is held four times at the quarter shares the proof data
names, at the same contents; the other three buffers pass to their windows as they are. -/

/-- The four buffers behind the seven windows' arrays. -/
theorem arrImage : Finset.univ.image (Pipeline.arrRef spec0) = [main_arg0, main_arg1, main_arg2, main_v0].toFinset := by decide

/-- A window's array is a whole buffer: held over its element set at the window's share, it is the buffer held at
    that share. -/
theorem win_eq (c : Dev nD) (w : Fin 7) :
    ((cfg0.win w).arr.view.loc (c : Thread nD τ) ↦[(cfg0.win w).arr.view.set]{(rdats m 0 c).share w} (rdats m 0 c).A w : sProp 𝕄)
      = ((c : Thread nD τ).loc (Pipeline.arrRef spec0 w) ↦{(rdats m 0 c).share w} m ((c : Thread nD τ).loc (Pipeline.arrRef spec0 w))) := by
  rw [(arr_whole0 w).set_eq_univ]; rfl

/-- The four buffers, each whole at the full share at its launch contents, are the proof data's arrays at entry:
    `x` split into its four quarter shares, one per window on it. -/
theorem arrays_split4 (c : Dev nD) :
    (Pipeline.arrBufs spec0 c (fun b => m ((c : Thread nD τ).loc b)) : sProp 𝕄) ⊢ (rdats m 0 c).arrays (rdats m 0 c).A := by
  unfold Pipeline.arrBufs RDat.arrays
  rw [bigSep_eq_bigSepL_of_eq [main_arg0, main_arg1, main_arg2, main_v0] arrImage (by decide), bigSep_W0]
  rw [win_eq m c 0, win_eq m c 1, win_eq m c 2, win_eq m c 3, win_eq m c 4, win_eq m c 5, win_eq m c 6]
  -- each window's share: a quarter of the full share for the four on `x`, the full share for the other three
  change iprop(((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_v0 ↦{fullShare} m ((c : Thread nD τ).loc main_v0)))
    ⊢ iprop(((c : Thread nD τ).loc main_arg0 ↦{fullShare.left.left} m ((c : Thread nD τ).loc main_arg0))
    ∗ ((c : Thread nD τ).loc main_arg0 ↦{fullShare.left.right} m ((c : Thread nD τ).loc main_arg0))
    ∗ ((c : Thread nD τ).loc main_arg0 ↦{fullShare.right.left} m ((c : Thread nD τ).loc main_arg0))
    ∗ ((c : Thread nD τ).loc main_arg0 ↦{fullShare.right.right} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_v0 ↦{fullShare} m ((c : Thread nD τ).loc main_v0)))
  iintro ⟨H0, H1, H2, H3⟩
  -- the full share is its left and right halves; each half is its own left and right halves
  ihave H0' := (pointsTo_share (PosShare.mem_left_op_right fullShare)).1 $$ H0
  icases H0' with ⟨HL, HR⟩
  ihave HL' := (pointsTo_share (PosShare.mem_left_op_right fullShare.left)).1 $$ HL
  icases HL' with ⟨HLL, HLR⟩
  ihave HR' := (pointsTo_share (PosShare.mem_left_op_right fullShare.right)).1 $$ HR
  icases HR' with ⟨HRL, HRR⟩
  isplitl [HLL]; · iexact HLL
  isplitl [HLR]; · iexact HLR
  isplitl [HRL]; · iexact HRL
  isplitl [HRR]; · iexact HRR
  isplitl [H1]; · iexact H1
  isplitl [H2]; · iexact H2
  iexact H3

/-- The physical post of the run: every windowed array holds contents the write-backs may have left. -/
def QC : PUnit × MemSt nD τ sig (Elt F) → Prop := fun r =>
  ∀ (c : Dev nD) (w : Fin cfg0.W), (rdats m 0 c).ArrAt w cfg0.N (r.2.mem ((cfg0.win w).arr.view.loc (c : Thread nD τ)))

set_option backward.isDefEq.respectTransparency.types false in
/-- The launch: from the body obligation, every weakly fair execution of @main terminates, nothing faults, and the
    windowed arrays end at contents the proof data allows. -/
theorem run_main (hbody : ∀ c : Dev nD, (rdats m 0 c).BodyObligation (defs₀ (F := F)) 𝒱₀ () Set.univ) :
    θ_run defs (onTc (τ := τ) (main (F := F))) (s₀ m ρ) (QC m) :=
  -- The kernel has no semaphore of its own and no prefetched table: the launch element is the pipeline's alone, the
  -- invariant is empty at both ends, and nothing of the unscoped or scoped buffers lies outside the windows.
  Pipeline.RDat.θ_run_region_pf (fun p => (cfgs p).toPCfg) (fun p => (cfgs p).toPCfg_adm) (rdats m) () cellOf_inj (0 : Fin 1)
    (osem := fun k : PEmpty => k.elim) winFacts₀0 (Pipeline.OwnSemFacts.none _) (Pipeline.PreFacts.none _) EP defs₀ 𝒱₀ m ρ main
    (hbody := hbody) (hne := block_pos0) (harr := arr_whole0) (hstage := stage_whole0) (howed := fun _ _ => rfl)
    (G := fun _ => BI.emp)
    (u₀ := initOf (Pipeline.cells cfgs cellOf_inj) (Pipeline.launchToks cfgs cellOf_inj))
    (hu₀ := by
      have h : (ownU (initOf (Pipeline.cells cfgs cellOf_inj) (Pipeline.launchToks cfgs cellOf_inj)) : sProp 𝕄)
          ⊢ BI.own ((EP (F := F)) (initOf (Pipeline.cells cfgs cellOf_inj) (Pipeline.launchToks cfgs cellOf_inj))) := BI.Entails.refl _
      iintro Hu
      ihave H := h $$ Hu
      imodintro
      isplitl [H]; · iexact H
      rw [BI.bigSep_emp_const]; iempintro)
    (V := fun c b => m ((c : Thread nD τ).loc b))
    (hmain := fun c Q => by
      -- @main is the one call of the region, then the return
      simp only [main, fn_kernel.body, Prog.lift, Prog.bind_op, Prog.bind_ret]
      iintro ⟨Hk, Hb⟩; iapply Hk; iexact Hb)
    (hsplit := arrays_split4 m)
    (hpf := fun _ k => k.elim0)
    (X := fun _ => iprop(emp)) (Y := fun _ => iprop(emp)) (Z := fun _ => iprop(emp))
    (hX := fun c => by iintro -; imodintro; isplitr <;> iempintro)
    (hin := fun c => by iintro -; iempintro)
    (hout := fun c => by
      rw [Pipeline.ownSems0_none, scopedRest0_eq]
      iintro -; isplitr; · iempintro
      isplitr <;> iempintro)
    (QY := fun _ _ => True)
    (hY := fun c s' => by
      iintro ⟨-, -, HSI⟩; imodintro
      isplitr; · ipureintro; trivial
      iexact HSI)
    (hQ := fun _ h c w => (h c).1 w)

end Cert.Kernel.Hand

end
-- ==== Proof.Spec.lean ====
/-
  The router's logits over the extended reals, as ONE function of the three argument arrays:
  logits[r, e] = (sum over k of x[r, k] * W[e, k]) + noise[r, e], for r < 8192, e < 64, k < 4096.
  Both programs are shown to compute this function at the ideal instance.
-/
import Idealize.ShloMosaic.PureOps.Ideal
import Idealize.ShloMosaic.Lib.ValueIdx

noncomputable section

namespace Cert.Router

open Idealize.ShloMosaic Idealize.ShloMosaic.ValueIdx

/-- The logits: row `r` of `x` against row `e` of `W` (so `x` times the transpose of `W`), plus the noise entry. -/
def logits (x : (⟨2, ![8192, 4096]⟩ : Shape).Idx → EReal) (W : (⟨2, ![64, 4096]⟩ : Shape).Idx → EReal)
    (nz : (⟨2, ![8192, 64]⟩ : Shape).Idx → EReal) : (⟨2, ![8192, 64]⟩ : Shape).Idx → EReal :=
  fun i => (∑ k : Fin 4096, x (ix2 (⟨(i 0).val, (i 0).isLt⟩ : Fin 8192) k) * W (ix2 (⟨(i 1).val, (i 1).isLt⟩ : Fin 64) k)) + nz i

end Cert.Router

end
-- ==== Proof.PayIdeal.lean ====
import proofs.«110078_g14456859918464_retrytranche1_0_20_alg».proof.Proof.KData
import proofs.«110078_g14456859918464_retrytranche1_0_20_alg».proof.Proof.Spec
import Idealize.ShloMosaic.PureOps.Ideal.Laws
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.ValueIdx (ix2)

/-! ## The operand indices of the block product

The product contracts axis 1 of both operands and keeps axis 0 of each: at result entry `(p, e)` and contraction
position `k` the left operand is read at `(p, k)` and the right one at `(e, k)`. One lemma per operand axis. -/

/-- The left operand's row is the result's row. -/
theorem lhs_pay_0 (i : S128x64.Idx) (q : dot_S128x4096_S64x4096_S128x64_1_1_0_0_n_n.contr.Idx) :
    (dot_S128x4096_S64x4096_S128x64_1_1_0_0_n_n.lhsIdx i q 0).val = (i 0).val := by
  unfold DotDims.lhsIdx
  rw [dif_neg (show ¬(0 : Fin S128x4096.rank) ∈ dot_S128x4096_S64x4096_S128x64_1_1_0_0_n_n.lhsBatch by decide), dif_pos (show (0 : Fin S128x4096.rank) ∈ dot_S128x4096_S64x4096_S128x64_1_1_0_0_n_n.lhsNonContracting by decide)]
  rfl
/-- The left operand's column is the contraction position. -/
theorem lhs_pay_1 (i : S128x64.Idx) (q : dot_S128x4096_S64x4096_S128x64_1_1_0_0_n_n.contr.Idx) :
    (dot_S128x4096_S64x4096_S128x64_1_1_0_0_n_n.lhsIdx i q 1).val = (q ⟨0, by decide⟩).val :=
  dot_S128x4096_S64x4096_S128x64_1_1_0_0_n_n.lhsIdx_val_of_single rfl i q
/-- The right operand's row is the result's column. -/
theorem rhs_pay_0 (i : S128x64.Idx) (q : dot_S128x4096_S64x4096_S128x64_1_1_0_0_n_n.contr.Idx) :
    (dot_S128x4096_S64x4096_S128x64_1_1_0_0_n_n.rhsIdx i q 0).val = (i 1).val := by
  unfold DotDims.rhsIdx
  rw [dif_neg (show ¬(0 : Fin S64x4096.rank) ∈ dot_S128x4096_S64x4096_S128x64_1_1_0_0_n_n.rhsBatch by decide), dif_pos (show (0 : Fin S64x4096.rank) ∈ dot_S128x4096_S64x4096_S128x64_1_1_0_0_n_n.rhsNonContracting by decide)]
  rfl
/-- The right operand's column is the contraction position. -/
theorem rhs_pay_1 (i : S128x64.Idx) (q : dot_S128x4096_S64x4096_S128x64_1_1_0_0_n_n.contr.Idx) :
    (dot_S128x4096_S64x4096_S128x64_1_1_0_0_n_n.rhsIdx i q 1).val = (q ⟨0, by decide⟩).val :=
  dot_S128x4096_S64x4096_S128x64_1_1_0_0_n_n.rhsIdx_val_of_single rfl i q

/-- One block of the result at an entry, over the extended reals: the row of `x` against the row of `W`, plus the noise entry. -/
theorem outblk_apply (x : Vec Ideal S8192x4096 .f32) (W : Vec Ideal S64x4096 .f32) (nz : Vec Ideal S8192x64 .f32)
    (b : Fin 64) (p : Fin 128) (e : Fin 64) :
    outblk (F := Ideal) x W nz b (ix2 p e)
      = (∑ k : Fin 4096, x (ix2 (rowOf b p) k) * W (ix2 e k)) + nz (ix2 (rowOf b p) e) := by
  unfold outblk k0_pay3 k0_pay2
  -- the sum of two vectors at an entry is the sum of the entries; the narrowing to bf16 is the identity
  show FloatOps.matmul dot_S128x4096_S64x4096_S128x64_1_1_0_0_n_n none (truncf (F := Ideal) .bf16 (xblk x b) bitsLt_bf16_f32)
      (truncf (F := Ideal) .bf16 W bitsLt_bf16_f32) (constant (F := Ideal) S128x64 .f32 0x00000000#32) (ix2 p e)
      + nzblk nz b (ix2 p e) = _
  -- the product into the zero block is the sum over the contraction positions, re-indexed by the one coordinate
  rw [Ideal.matmul_constant_zero_apply, ← Equiv.sum_comp (ValueIdx.contrEquiv1 dot_S128x4096_S64x4096_S128x64_1_1_0_0_n_n 4096 rfl rfl).symm]
  refine congrArg₂ (· + ·) (Finset.sum_congr rfl fun k _ => ?_) rfl
  have hk := ValueIdx.contrEquiv1_symm_val dot_S128x4096_S64x4096_S128x64_1_1_0_0_n_n 4096 rfl rfl k
  have el : dot_S128x4096_S64x4096_S128x64_1_1_0_0_n_n.lhsIdx (ix2 p e) ((ValueIdx.contrEquiv1 dot_S128x4096_S64x4096_S128x64_1_1_0_0_n_n 4096 rfl rfl).symm k) = ix2 p k := funext fun a => Fin.ext (by
    match a with
    | ⟨0, _⟩ => exact lhs_pay_0 _ _
    | ⟨1, _⟩ => exact (lhs_pay_1 _ _).trans hk)
  have er : dot_S128x4096_S64x4096_S128x64_1_1_0_0_n_n.rhsIdx (ix2 p e) ((ValueIdx.contrEquiv1 dot_S128x4096_S64x4096_S128x64_1_1_0_0_n_n 4096 rfl rfl).symm k) = ix2 e k := funext fun a => Fin.ext (by
    match a with
    | ⟨0, _⟩ => exact rhs_pay_0 _ _
    | ⟨1, _⟩ => exact (rhs_pay_1 _ _).trans hk)
  rw [el, er]
  rfl

/-- The whole result over the extended reals is the router's logits. -/
theorem OUT_eq_logits (x : Vec Ideal S8192x4096 .f32) (W : Vec Ideal S64x4096 .f32) (nz : Vec Ideal S8192x64 .f32) :
    OUT (F := Ideal) x W nz = Cert.Router.logits x W nz := by
  funext j
  unfold OUT Cert.Router.logits
  rw [outblk_apply]
  -- row (r / 128) * 128 + r % 128 is row r
  have hr : rowOf (⟨(j 0).val / 128, by have : (j 0).val < 8192 := (j 0).isLt; omega⟩ : Fin 64)
      (⟨(j 0).val % 128, Nat.mod_lt _ (by decide)⟩ : Fin 128) = (⟨(j 0).val, (j 0).isLt⟩ : Fin 8192) :=
    Fin.ext (Nat.div_add_mod _ _)
  rw [hr]
  -- an index is the pair of its coordinates
  have hj : ix2 (⟨(j 0).val, (j 0).isLt⟩ : Fin 8192) (⟨(j 1).val, (j 1).isLt⟩ : Fin 64) = j := by
    funext a; match a with | ⟨0, _⟩ => rfl | ⟨1, _⟩ => rfl
  rw [hj]

end Cert.KernelIdeal.Hand

end
-- ==== Proof.RefValue.lean ====
import proofs.«110078_g14456859918464_retrytranche1_0_20_alg».proof.Defs
import proofs.«110078_g14456859918464_retrytranche1_0_20_alg».proof.Proof.Gen.ReferenceIdeal
import proofs.«110078_g14456859918464_retrytranche1_0_20_alg».proof.Proof.Gen.ReferenceIdeal.Read
import proofs.«110078_g14456859918464_retrytranche1_0_20_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx (ix2)

/-- The reference's result over the extended reals is the router's logits: the transpose read at an index turns the
    product with the transposed `W` into rows of `x` against rows of `W`. -/
theorem ref_eq (x : (⟨S8192x4096, .f32⟩ : BufTy).Contents (Elt Ideal)) (W : (⟨S64x4096, .f32⟩ : BufTy).Contents (Elt Ideal))
    (nz : (⟨S8192x64, .f32⟩ : BufTy).Contents (Elt Ideal)) :
    Cert.ReferenceIdeal.Read.val_main_v2 (F := Ideal) x W nz = Cert.Router.logits x W nz := by
  funext i
  rw [Read.val_main_v2_apply, Read.val_main_v1_apply]
  unfold Cert.Router.logits
  -- the sum of two extended reals; under the sum, the transposed `W` at `(k, e)` is `W` at `(e, k)`
  refine congrArg₂ (· + ·) (Finset.sum_congr rfl fun k _ => ?_) rfl
  rw [Read.val_main_v0_apply]
  have el : Read.lidx_main_v1 i k = ix2 (⟨(i 0).val, (i 0).isLt⟩ : Fin 8192) k := by
    funext a; match a with | ⟨0, _⟩ => rfl | ⟨1, _⟩ => rfl
  have er : Read.idx_main_v0 (Read.ridx_main_v1 i k) = ix2 (⟨(i 1).val, (i 1).isLt⟩ : Fin 64) k := by
    funext a; match a with | ⟨0, _⟩ => rfl | ⟨1, _⟩ => rfl
  rw [el, er]

end Cert.ReferenceIdeal.RefValue

end
-- ==== Proof.lean ====
/-
  The certificate of the router kernel: logits = x · Wᵀ + noise, for x of 8192 × 4096, W of 64 × 4096 and noise of 8192 × 64.

  The kernel walks the 8192 token rows in sixteen grid points of 512 rows. At each point it is handed four 128-row
  blocks of `x` (the array reaches the kernel through four windows), the whole of `W` and of the noise, and an output buffer
  the size of the whole result that stays resident for the whole grid; it stores, into the point's 512 rows of that
  buffer, the four products of a block of `x` with the transpose of `W` plus the matching rows of the noise. The buffer
  is written back once, after the last point. So the claim about the result is an invariant over the grid: before
  point `t` the buffer already holds the result's rows below `512 t`, and a point changes only its own 512 rows.

  Frames: the body is run once symbolically in the grid point, on any whole staging buffers; the launch holds `x`
  in four quarter shares, one per window. The same text serves the word-level program and its idealization.
  Value: over the extended reals each entry of a block product is the sum over the 4096 contraction positions of a row of
  `x` against a row of `W` (the narrowing to bf16 is the identity there, the accumulator starts at zero), and the
  reference's product with the transposed `W`, read at an index, is the same sum; both add the noise entry last.
  No finiteness is used: the two sides are the same expression.
-/
import proofs.«110078_g14456859918464_retrytranche1_0_20_alg».proof.Defs
import proofs.«110078_g14456859918464_retrytranche1_0_20_alg».proof.Proof.Gen.Kernel
import proofs.«110078_g14456859918464_retrytranche1_0_20_alg».proof.Proof.Gen.KernelIdeal
import proofs.«110078_g14456859918464_retrytranche1_0_20_alg».proof.Proof.Gen.ReferenceIdeal
import proofs.«110078_g14456859918464_retrytranche1_0_20_alg».proof.Proof.Gen.Pre_finite_inputs
import proofs.«110078_g14456859918464_retrytranche1_0_20_alg».proof.Proof.Gen.ReferenceIdeal.Run
import proofs.«110078_g14456859918464_retrytranche1_0_20_alg».proof.Proof.Gen.ReferenceIdeal.Read
import proofs.«110078_g14456859918464_retrytranche1_0_20_alg».proof.Proof.KOblig
import proofs.«110078_g14456859918464_retrytranche1_0_20_alg».proof.Proof.KLaunch
import proofs.«110078_g14456859918464_retrytranche1_0_20_alg».proof.Proof.BOblig
import proofs.«110078_g14456859918464_retrytranche1_0_20_alg».proof.Proof.BLaunch
import proofs.«110078_g14456859918464_retrytranche1_0_20_alg».proof.Proof.PayIdeal
import proofs.«110078_g14456859918464_retrytranche1_0_20_alg».proof.Proof.RefValue

noncomputable section

namespace Cert.Proof

open Idealize.ShloMosaic Idealize.ShloMosaic.TcCoe Idealize.SL.Sem

/-- The word-level kernel runs, faults nowhere, and leaves `x`, `W` and the noise as they were: they are read through
    input windows (0, 4 and 5 of the seven), whose arrays no write-back touches. -/
theorem frame_k : Cert.frame_Kernel := by
  intro m ρ _
  refine (θ_run Cert.Kernel.defs _ _).mono (fun r h c => ⟨?_, ?_, ?_⟩)
    (Cert.Kernel.Hand.run_main (F := Bits) m ρ (Cert.Kernel.Hand.body_obligation m))
  · exact Cert.Kernel.Hand.final_in m c (0 : Fin 7) (by decide) _ (h c (0 : Fin 7))
  · exact Cert.Kernel.Hand.final_in m c (4 : Fin 7) (by decide) _ (h c (4 : Fin 7))
  · exact Cert.Kernel.Hand.final_in m c (5 : Fin 7) (by decide) _ (h c (5 : Fin 7))

/-- The same of the idealized kernel. -/
theorem frame_ki : Cert.frame_KernelIdeal := by
  intro m ρ _
  refine (θ_run Cert.KernelIdeal.defs _ _).mono (fun r h c => ⟨?_, ?_, ?_⟩)
    (Cert.KernelIdeal.Hand.run_main (F := Ideal) m ρ (Cert.KernelIdeal.Hand.body_obligation m))
  · exact Cert.KernelIdeal.Hand.final_in m c (0 : Fin 7) (by decide) _ (h c (0 : Fin 7))
  · exact Cert.KernelIdeal.Hand.final_in m c (4 : Fin 7) (by decide) _ (h c (4 : Fin 7))
  · exact Cert.KernelIdeal.Hand.final_in m c (5 : Fin 7) (by decide) _ (h c (5 : Fin 7))

/-- The reference is three host operations; its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the router's logits of their (agreeing) arguments: the kernel's
    result array is the whole result `OUT`, which is the logits; the reference's is the logits by reading its three
    operations at an index. -/
theorem algebraic : Cert.algebraic_KernelIdeal_ReferenceIdeal := by
  intro m ρ m' ρ' _ hagree
  refine ⟨fun c => Cert.Router.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩)
      (Cert.KernelIdeal.Hand.run_main (F := Ideal) m ρ (Cert.KernelIdeal.Hand.body_obligation m))
    · exact (Cert.KernelIdeal.Hand.final_out m c _ (h c (6 : Fin 7))).trans (Cert.KernelIdeal.Hand.OUT_eq_logits _ _ _)
    · exact Cert.KernelIdeal.Hand.final_in m c (0 : Fin 7) (by decide) _ (h c (0 : Fin 7))
    · exact Cert.KernelIdeal.Hand.final_in m c (4 : Fin 7) (by decide) _ (h c (4 : Fin 7))
    · exact Cert.KernelIdeal.Hand.final_in m c (5 : Fin 7) (by decide) _ (h c (5 : Fin 7))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
